-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200 : Shape := ⟨2, ![4096, 200]⟩
abbrev S50000x128 : Shape := ⟨2, ![50000, 128]⟩
abbrev S1024x25600 : Shape := ⟨2, ![1024, 25600]⟩
abbrev S1024 : Shape := ⟨1, ![1024]⟩
abbrev S2x1024 : Shape := ⟨2, ![2, 1024]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1024x25600 : S_.BroadcastsInDim S1024x25600 (![] : Fin 0 → Fin S1024x25600.rank)
  reducesTo_S1024x25600_S_d0_1 : S1024x25600.ReducesTo [0, 1] S_
  bcast_S_S1024 : S_.BroadcastsInDim S1024 (![] : Fin 0 → Fin S1024.rank)
  reducesTo_S1024_S_d0 : S1024.ReducesTo [0] S_
  bcast_S_S2x1024 : S_.BroadcastsInDim S2x1024 (![] : Fin 0 → Fin S2x1024.rank)
  reducesTo_S2x1024_S_d0_1 : S2x1024.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : IVec S4096x200 32) (main_arg1 : FVec F S50000x128 .f32) (main_arg2 : FVec F S1024x25600 .f32) (main_arg3 : FVec F S1024 .f32) (main_arg4 : FVec F S2x1024 .f32) (main_arg5 : FVec F S2 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1024x25600 .f32 := Host.absf main_arg2
  let main_cst_0 : FVec F S_ .f32 := constant S_ .f32 0x7F800000#32
  let main_v5 : FVec F S1024x25600 .f32 := broadcastInDim S1024x25600 ![] bcast_S_S1024x25600 main_cst_0
  let main_v6 : IVec S1024x25600 1 := cmpf .olt main_v4 main_v5
  let main_c_1 : IVec S_ 1 := constantI S_ 1 1#1
  let main_v7 : IVec S_ 1 := (fun x v => Host.reduce IntOp.andi x v reducesTo_S1024x25600_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S2x1024 .f32 := Host.absf main_arg4
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_arg5 main_v13 main_v16
-- ==== Kernel.lean ====
abbrev S4096x200 : Shape := ⟨2, ![4096, 200]⟩
abbrev S50000x128 : Shape := ⟨2, ![50000, 128]⟩
abbrev S1024x25600 : Shape := ⟨2, ![1024, 25600]⟩
abbrev S1024 : Shape := ⟨1, ![1024]⟩
abbrev S2x1024 : Shape := ⟨2, ![2, 1024]⟩
abbrev S2 : Shape := ⟨1, ![2]⟩
abbrev S_ : Shape := ⟨0, ![]⟩
abbrev S1 : Shape := ⟨1, ![1]⟩
abbrev S128 : Shape := ⟨1, ![128]⟩
abbrev S4096x200x1 : Shape := ⟨3, ![4096, 200, 1]⟩
abbrev S4096x200x128 : Shape := ⟨3, ![4096, 200, 128]⟩
abbrev S4096x25600 : Shape := ⟨2, ![4096, 25600]⟩
abbrev S25600x1024 : Shape := ⟨2, ![25600, 1024]⟩
abbrev S1024x2 : Shape := ⟨2, ![1024, 2]⟩
abbrev S4096x2 : Shape := ⟨2, ![4096, 2]⟩
abbrev S512x2560 : Shape := ⟨2, ![512, 2560]⟩
abbrev S2560x1024 : Shape := ⟨2, ![2560, 1024]⟩
abbrev S512x2 : Shape := ⟨2, ![512, 2]⟩
abbrev S512x1024 : Shape := ⟨2, ![512, 1024]⟩
abbrev S1x1024 : Shape := ⟨2, ![1, 1024]⟩
abbrev S1x2 : Shape := ⟨2, ![1, 2]⟩
abbrev S512 : Shape := ⟨1, ![512]⟩
abbrev S512x1 : Shape := ⟨2, ![512, 1]⟩

abbrev nBuf : Space → Nat
  | .hbm => 27
  | .vmem => 10
  | .smem => 0
  | _ => 0

abbrev bufTy : (tb : Table) → Fin (tcTables nBuf tb) → BufTy
  | .hbm, ⟨0, _⟩ => ⟨S4096x200, .i32⟩
  | .hbm, ⟨1, _⟩ => ⟨S50000x128, .f32⟩
  | .hbm, ⟨2, _⟩ => ⟨S1024x25600, .f32⟩
  | .hbm, ⟨3, _⟩ => ⟨S1024, .f32⟩
  | .hbm, ⟨4, _⟩ => ⟨S2x1024, .f32⟩
  | .hbm, ⟨5, _⟩ => ⟨S2, .f32⟩
  | .hbm, ⟨6, _⟩ => ⟨S_, .i32⟩
  | .hbm, ⟨7, _⟩ => ⟨S1, .i32⟩
  | .hbm, ⟨8, _⟩ => ⟨S_, .f32⟩
  | .hbm, ⟨9, _⟩ => ⟨S128, .f32⟩
  | .hbm, ⟨10, _⟩ => ⟨S50000x128, .f32⟩
  | .hbm, ⟨11, _⟩ => ⟨S_, .i32⟩
  | .hbm, ⟨12, _⟩ => ⟨S4096x200, .i32⟩
  | .hbm, ⟨13, _⟩ => ⟨S4096x200, .i1⟩
  | .hbm, ⟨14, _⟩ => ⟨S_, .i32⟩
  | .hbm, ⟨15, _⟩ => ⟨S4096x200, .i32⟩
  | .hbm, ⟨16, _⟩ => ⟨S4096x200, .i32⟩
  | .hbm, ⟨17, _⟩ => ⟨S4096x200, .i32⟩
  | .hbm, ⟨18, _⟩ => ⟨S4096x200x1, .i32⟩
  | .hbm, ⟨19, _⟩ => ⟨S4096x200x128, .f32⟩
  | .hbm, ⟨20, _⟩ => ⟨S4096x25600, .f32⟩
  | .hbm, ⟨21, _⟩ => ⟨S4096x25600, .bf16⟩
  | .hbm, ⟨22, _⟩ => ⟨S25600x1024, .f32⟩
  | .hbm, ⟨23, _⟩ => ⟨S25600x1024, .bf16⟩
  | .hbm, ⟨24, _⟩ => ⟨S1024x2, .f32⟩
  | .hbm, ⟨25, _⟩ => ⟨S1024x2, .bf16⟩
  | .hbm, ⟨26, _⟩ => ⟨S4096x2, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1024, .f32⟩
  | .local _ .vmem, ⟨5, _⟩ => ⟨S1024x2, .bf16⟩
  | .local _ .vmem, ⟨6, _⟩ => ⟨S2, .f32⟩
  | .local _ .vmem, ⟨7, _⟩ => ⟨S512x2, .f32⟩
  | .local _ .vmem, ⟨8, _⟩ => ⟨S512x2, .f32⟩
  | .local _ .vmem, ⟨9, _⟩ => ⟨S512x1024, .f32⟩
  | _, _ => ⟨S4096x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S1 : S_.BroadcastsInDim S1 (![] : Fin 0 → Fin S1.rank)
  bcast_S_S128 : S_.BroadcastsInDim S128 (![] : Fin 0 → Fin S128.rank)
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  shapeCasts_S4096x200x128_S4096x25600 : S4096x200x128.ShapeCasts S4096x25600
  bitsLt_bf16_f32 : FTy.bits .bf16 < FTy.bits .f32
  transposes_S1024x25600_S25600x1024_1_0 : S1024x25600.Transposes [1, 0] S25600x1024
  transposes_S2x1024_S1024x2_1_0 : S2x1024.Transposes [1, 0] S1024x2
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2560_S512x2560_0_0 : ∀ a, (![0, 0] : Fin 2 → Nat) a + S512x2560.size a ≤ S512x2560.size a
  h_S512x2560 : 0 < S512x2560.numel
  shapeCasts_S512x2560_S512x2560 : S512x2560.ShapeCasts S512x2560
  inb_S2560x1024_S2560x1024_0_0 : ∀ a, (![0, 0] : Fin 2 → Nat) a + S2560x1024.size a ≤ S2560x1024.size a
  h_S2560x1024 : 0 < S2560x1024.numel
  shapeCasts_S2560x1024_S2560x1024 : S2560x1024.ShapeCasts S2560x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S2_S2_0 : ∀ a, (![0] : Fin 1 → Nat) a + S2.size a ≤ S2.size a
  h_S2 : 0 < S2.numel
  shapeCasts_S2_S1x2 : S2.ShapeCasts S1x2
  broadcasts_S1x2_S512x2 : S1x2.Broadcasts S512x2
  reduces_S512x2_S512 : S512x2.Reduces [1] S512
  shapeCasts_S512_S512x1 : S512.ShapeCasts S512x1
  broadcasts_S512x1_S512x2 : S512x1.Broadcasts S512x2
  inb_S512x2_S512x2_0_0 : ∀ a, (![0, 0] : Fin 2 → Nat) a + S512x2.size a ≤ S512x2.size a
  h_S512x2 : 0 < S512x2.numel
  scatter_S50000x128_S1_S128_0_0_0_0_wf : ScatterDims.WF S50000x128 S1 S128 [0] [0] [0] 0
  gather_S50000x128_S4096x200x1_S4096x200x128_2_0_n_n_0_2_1128_wf : GatherDims.WF S50000x128 S4096x200x1 S4096x200x128 [2] [0] [] [0] [] 2 ![1, 128]
  dot_S512x2560_S2560x1024_S512x1024_1_0_0_1_n_n_wf : DotDims.WF S512x2560 S2560x1024 S512x1024 [1] [0] [0] [1] [] []
  dot_S512x1024_S1024x2_S512x2_1_0_0_1_n_n_wf : DotDims.WF S512x1024 S1024x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2560.size a ≤ S4096x25600.size a
  hwx0_0 : ∀ i : grid0.Coords, EltTy.bits .bf16 = 32 ∨ (Rect.block (s := S4096x25600) S512x2560.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x1024.size a ≤ S25600x1024.size a
  hwx0_1 : ∀ i : grid0.Coords, EltTy.bits .bf16 = 32 ∨ (Rect.block (s := S25600x1024) S2560x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2.size a ≤ S1024x2.size a
  hwx0_3 : ∀ i : grid0.Coords, EltTy.bits .bf16 = 32 ∨ (Rect.block (s := S1024x2) S1024x2.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2.size a ≤ S2.size a
  hwx0_4 : ∀ i : grid0.Coords, EltTy.bits .f32 = 32 ∨ (Rect.block (s := S2) S2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2.size a ≤ S4096x2.size a
  hwx0_5 : ∀ i : grid0.Coords, EltTy.bits .f32 = 32 ∨ (Rect.block (s := S4096x2) S512x2.size (cc0_transform_5 i) (hinb0_5 i)).WholeWords (EltTy.packing .f32)

variable [Facts₀]

def scatter_S50000x128_S1_S128_0_0_0_0 : ScatterDims S50000x128 S1 S128 where
  updateWindowDims := [0]
  insertedWindowDims := [0]
  scatterDimsToOperandDims := [0]
  indexVectorDim := 0
  wf := scatter_S50000x128_S1_S128_0_0_0_0_wf
def gather_S50000x128_S4096x200x1_S4096x200x128_2_0_n_n_0_2_1128 : GatherDims S50000x128 S4096x200x1 S4096x200x128 where
  offsetDims := [2]
  collapsedSliceDims := [0]
  operandBatchingDims := []
  startIndicesBatchingDims := []
  startIndexMap := [0]
  indexVectorDim := 2
  sliceSizes := ![1, 128]
  wf := gather_S50000x128_S4096x200x1_S4096x200x128_2_0_n_n_0_2_1128_wf
def dot_S512x2560_S2560x1024_S512x1024_1_0_0_1_n_n : DotDims S512x2560 S2560x1024 S512x1024 where
  lhsContracting := [1]
  rhsContracting := [0]
  lhsNonContracting := [0]
  rhsNonContracting := [1]
  lhsBatch := []
  rhsBatch := []
  wf := dot_S512x2560_S2560x1024_S512x1024_1_0_0_1_n_n_wf
def dot_S512x1024_S1024x2_S512x2_1_0_0_1_n_n : DotDims S512x1024 S1024x2 S512x2 where
  lhsContracting := [1]
  rhsContracting := [0]
  lhsNonContracting := [0]
  rhsNonContracting := [1]
  lhsBatch := []
  rhsBatch := []
  wf := dot_S512x1024_S1024x2_S512x2_1_0_0_1_n_n_wf

abbrev win0_0 : Pipeline.Window sig grid0 :=
  Pipeline.Window.ofSpec (Memref.whole main_v11) S512x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2560x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S512x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x200 : Shape := ⟨2, ![4096, 200]⟩
abbrev S50000x128 : Shape := ⟨2, ![50000, 128]⟩
abbrev S1024x25600 : Shape := ⟨2, ![1024, 25600]⟩
abbrev S1024 : Shape := ⟨1, ![1024]⟩
abbrev S2x1024 : Shape := ⟨2, ![2, 1024]⟩
abbrev S2 : Shape := ⟨1, ![2]⟩
abbrev S_ : Shape := ⟨0, ![]⟩
abbrev S1 : Shape := ⟨1, ![1]⟩
abbrev S128 : Shape := ⟨1, ![128]⟩
abbrev S4096x200x1 : Shape := ⟨3, ![4096, 200, 1]⟩
abbrev S4096x200x128 : Shape := ⟨3, ![4096, 200, 128]⟩
abbrev S4096x25600 : Shape := ⟨2, ![4096, 25600]⟩
abbrev S25600x1024 : Shape := ⟨2, ![25600, 1024]⟩
abbrev S4096x1024 : Shape := ⟨2, ![4096, 1024]⟩
abbrev S1x1024 : Shape := ⟨2, ![1, 1024]⟩
abbrev S1024x2 : Shape := ⟨2, ![1024, 2]⟩
abbrev S4096x2 : Shape := ⟨2, ![4096, 2]⟩
abbrev S1x2 : Shape := ⟨2, ![1, 2]⟩
abbrev S4096 : Shape := ⟨1, ![4096]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S50000x128, .f32⟩
  | .hbm, ⟨2, _⟩ => ⟨S1024x25600, .f32⟩
  | .hbm, ⟨3, _⟩ => ⟨S1024, .f32⟩
  | .hbm, ⟨4, _⟩ => ⟨S2x1024, .f32⟩
  | .hbm, ⟨5, _⟩ => ⟨S2, .f32⟩
  | .hbm, ⟨6, _⟩ => ⟨S_, .i32⟩
  | .hbm, ⟨7, _⟩ => ⟨S1, .i32⟩
  | .hbm, ⟨8, _⟩ => ⟨S_, .f32⟩
  | .hbm, ⟨9, _⟩ => ⟨S128, .f32⟩
  | .hbm, ⟨10, _⟩ => ⟨S50000x128, .f32⟩
  | .hbm, ⟨11, _⟩ => ⟨S_, .i32⟩
  | .hbm, ⟨12, _⟩ => ⟨S4096x200, .i32⟩
  | .hbm, ⟨13, _⟩ => ⟨S4096x200, .i1⟩
  | .hbm, ⟨14, _⟩ => ⟨S_, .i32⟩
  | .hbm, ⟨15, _⟩ => ⟨S4096x200, .i32⟩
  | .hbm, ⟨16, _⟩ => ⟨S4096x200, .i32⟩
  | .hbm, ⟨17, _⟩ => ⟨S4096x200, .i32⟩
  | .hbm, ⟨18, _⟩ => ⟨S4096x200x1, .i32⟩
  | .hbm, ⟨19, _⟩ => ⟨S4096x200x128, .f32⟩
  | .hbm, ⟨20, _⟩ => ⟨S4096x25600, .f32⟩
  | .hbm, ⟨21, _⟩ => ⟨S25600x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S1024x2, .f32⟩
  | .hbm, ⟨30, _⟩ => ⟨S4096x2, .f32⟩
  | .hbm, ⟨31, _⟩ => ⟨S1x2, .f32⟩
  | .hbm, ⟨32, _⟩ => ⟨S4096x2, .f32⟩
  | .hbm, ⟨33, _⟩ => ⟨S4096x2, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S4096x1, .f32⟩
  | .hbm, ⟨40, _⟩ => ⟨S4096x2, .f32⟩
  | .hbm, ⟨41, _⟩ => ⟨S4096x2, .f32⟩
  | .hbm, ⟨42, _⟩ => ⟨S4096x2, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x2, .f32⟩
  | .hbm, ⟨47, _⟩ => ⟨S4096x2, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S_S128 : S_.BroadcastsInDim S128 (![] : Fin 0 → Fin S128.rank)
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  shapeCasts_S4096x200x128_S4096x25600 : S4096x200x128.ShapeCasts S4096x25600
  transposes_S1024x25600_S25600x1024_1_0 : S1024x25600.Transposes [1, 0] S25600x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  transposes_S2x1024_S1024x2_1_0 : S2x1024.Transposes [1, 0] S1024x2
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  reducesTo_S4096x2_S4096_d1 : S4096x2.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x2_0_1 : S4096x1.BroadcastsInDim S4096x2 (![0, 1] : Fin 2 → Fin S4096x2.rank)
  scatter_S50000x128_S1_S128_0_0_0_0_wf : ScatterDims.WF S50000x128 S1 S128 [0] [0] [0] 0
  gather_S50000x128_S4096x200x1_S4096x200x128_2_0_n_n_0_2_1128_wf : GatherDims.WF S50000x128 S4096x200x1 S4096x200x128 [2] [0] [] [0] [] 2 ![1, 128]
  dot_S4096x25600_S25600x1024_S4096x1024_1_0_0_1_n_n_wf : DotDims.WF S4096x25600 S25600x1024 S4096x1024 [1] [0] [0] [1] [] []
  dot_S4096x1024_S1024x2_S4096x2_1_0_0_1_n_n_wf : DotDims.WF S4096x1024 S1024x2 S4096x2 [1] [0] [0] [1] [] []

variable [Facts₀]

def scatter_S50000x128_S1_S128_0_0_0_0 : ScatterDims S50000x128 S1 S128 where
  updateWindowDims := [0]
  insertedWindowDims := [0]
  scatterDimsToOperandDims := [0]
  indexVectorDim := 0
  wf := scatter_S50000x128_S1_S128_0_0_0_0_wf
def gather_S50000x128_S4096x200x1_S4096x200x128_2_0_n_n_0_2_1128 : GatherDims S50000x128 S4096x200x1 S4096x200x128 where
  offsetDims := [2]
  collapsedSliceDims := [0]
  operandBatchingDims := []
  startIndicesBatchingDims := []
  startIndexMap := [0]
  indexVectorDim := 2
  sliceSizes := ![1, 128]
  wf := gather_S50000x128_S4096x200x1_S4096x200x128_2_0_n_n_0_2_1128_wf
def dot_S4096x25600_S25600x1024_S4096x1024_1_0_0_1_n_n : DotDims S4096x25600 S25600x1024 S4096x1024 where
  lhsContracting := [1]
  rhsContracting := [0]
  lhsNonContracting := [0]
  rhsNonContracting := [1]
  lhsBatch := []
  rhsBatch := []
  wf := dot_S4096x25600_S25600x1024_S4096x1024_1_0_0_1_n_n_wf
def dot_S4096x1024_S1024x2_S4096x2_1_0_0_1_n_n : DotDims S4096x1024 S1024x2 S4096x2 where
  lhsContracting := [1]
  rhsContracting := [0]
  lhsNonContracting := [0]
  rhsNonContracting := [1]
  lhsBatch := []
  rhsBatch := []
  wf := dot_S4096x1024_S1024x2_S4096x2_1_0_0_1_n_n_wf

class Facts : Prop extends Facts₀ where

variable [Facts]
-- ==== Proof.CasePieces.lean ====
/-
  What each control case of the kernel body leaves behind, as the body's own arithmetic.

  The body keeps a [512, 1024] accumulator between grid points. At the first reduction step of a row block it
  clears the accumulator and adds that step's [512, 2560] x [2560, 1024] product (case A); at a middle step it adds the
  step's product to what the step before left (case B); at the last step it adds the product and then writes the
  output block from the finished accumulator: bias, clamp at zero, the second product, bias, row softmax (case C).
  Each case's stores go through the whole buffer, so what a buffer holds afterwards is the last value stored, and a
  load of the accumulator after a store in the same step reads that stored value. Stated at any float instance.
-/
import proofs.«103160_j62405874811636_1_alg».proof.Proof.Gen.KernelIdeal.Frame
import Idealize.ShloMosaic.Lib.Pipeline.Value
import Idealize.ShloMosaic.Lib.Tactic

set_option maxRecDepth 16384

noncomputable section
namespace Cert.KernelIdeal.Pieces
open Cert.KernelIdeal Cert.KernelIdeal.Gen Idealize.ShloMosaic Idealize.ShloMosaic.TcCoe Idealize.ShloMosaic.Tactic Idealize.SL.Sem

variable {F : FTy → Type} [FloatOps F]

/-- The zero offsets of a rank-2 whole-buffer rectangle. -/
theorem off2 : (![0, 0] : Fin 2 → ℕ) = fun _ => 0 := by funext a; fin_cases a <;> rfl
/-- The zero offset of a rank-1 whole-buffer rectangle. -/
theorem off1 : (![0] : Fin 1 → ℕ) = fun _ => 0 := by funext a; fin_cases a; rfl

/-- First step of a row block: the accumulator ends at zero plus the step's product. -/
theorem acc_first (c : Dev nD) (i : grid0.Coords) (arg2 : Memref sig .tc .vmem S512x2560 .bf16) (harg2 : arg2.IsWhole) (arg3 : Memref sig .tc .vmem S2560x1024 .bf16) (harg3 : arg3.IsWhole) (arg4 : Memref sig .tc .vmem S1024 .f32) (harg4 : arg4.IsWhole) (arg5 : Memref sig .tc .vmem S1024x2 .bf16) (harg5 : arg5.IsWhole) (arg6 : Memref sig .tc .vmem S2 .f32) (harg6 : arg6.IsWhole) (arg7 : Memref sig .tc .vmem S512x2 .f32) (harg7 : arg7.IsWhole) (arg8 : Memref sig .tc .vmem S512x1024 .f32) (harg8 : arg8.IsWhole) (hc0 : cond0_0 i) (hc1 : ¬cond0_1 i) (x0 : Vec F S512x2560 .bf16) (x1 : Vec F S2560x1024 .bf16) (x2 : Vec F S1024 .f32) (x3 : Vec F S1024x2 .bf16) (x4 : Vec F S2 .f32) :
    sout0_A_0 c i arg2 harg2 arg3 harg3 arg4 harg4 arg5 harg5 arg6 harg6 arg7 harg7 arg8 harg8 hc0 hc1 x0 x1 x2 x3 x4 = k0_pay2 (k0_pay1 (F := F)) x0 x1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S512x1024) off2]
  simp only [View.readAt_eq_ld, harg2.read_unread, harg3.read_unread, View.ld_unit_zero (S := S512x2560) off2,
    View.ld_unit_zero (S := S2560x1024) off2, View.readCov_unit_zero (S := S512x1024) _ off2]

/-- A middle step: the accumulator ends at what the step before left plus the step's product. -/
theorem acc_middle (c : Dev nD) (i : grid0.Coords) (arg2 : Memref sig .tc .vmem S512x2560 .bf16) (harg2 : arg2.IsWhole) (arg3 : Memref sig .tc .vmem S2560x1024 .bf16) (harg3 : arg3.IsWhole) (arg4 : Memref sig .tc .vmem S1024 .f32) (harg4 : arg4.IsWhole) (arg5 : Memref sig .tc .vmem S1024x2 .bf16) (harg5 : arg5.IsWhole) (arg6 : Memref sig .tc .vmem S2 .f32) (harg6 : arg6.IsWhole) (arg7 : Memref sig .tc .vmem S512x2 .f32) (harg7 : arg7.IsWhole) (arg8 : Memref sig .tc .vmem S512x1024 .f32) (harg8 : arg8.IsWhole) (hc0 : ¬cond0_0 i) (hc1 : ¬cond0_1 i) (x0 : Vec F S512x2560 .bf16) (x1 : Vec F S2560x1024 .bf16) (x2 : Vec F S1024 .f32) (x3 : Vec F S1024x2 .bf16) (x4 : Vec F S2 .f32) (xs0 : Vec F S512x1024 .f32) :
    sout0_B_0 c i arg2 harg2 arg3 harg3 arg4 harg4 arg5 harg5 arg6 harg6 arg7 harg7 arg8 harg8 hc0 hc1 x0 x1 x2 x3 x4 xs0 = k0_pay2 xs0 x0 x1 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero (S := S512x1024) off2]
  simp only [View.readAt_eq_ld, harg2.read_unread, harg3.read_unread, harg8.read_unread, View.ld_unit_zero (S := S512x2560) off2,
    View.ld_unit_zero (S := S2560x1024) off2, View.ld_unit_zero (S := S512x1024) off2]

/-- The last step: the accumulator likewise, -/
theorem acc_last (c : Dev nD) (i : grid0.Coords) (arg2 : Memref sig .tc .vmem S512x2560 .bf16) (harg2 : arg2.IsWhole) (arg3 : Memref sig .tc .vmem S2560x1024 .bf16) (harg3 : arg3.IsWhole) (arg4 : Memref sig .tc .vmem S1024 .f32) (harg4 : arg4.IsWhole) (arg5 : Memref sig .tc .vmem S1024x2 .bf16) (harg5 : arg5.IsWhole) (arg6 : Memref sig .tc .vmem S2 .f32) (harg6 : arg6.IsWhole) (arg7 : Memref sig .tc .vmem S512x2 .f32) (harg7 : arg7.IsWhole) (arg8 : Memref sig .tc .vmem S512x1024 .f32) (harg8 : arg8.IsWhole) (hc0 : ¬cond0_0 i) (hc1 : cond0_1 i) (x0 : Vec F S512x2560 .bf16) (x1 : Vec F S2560x1024 .bf16) (x2 : Vec F S1024 .f32) (x3 : Vec F S1024x2 .bf16) (x4 : Vec F S2 .f32) (xs0 : Vec F S512x1024 .f32) :
    sout0_C_0 c i arg2 harg2 arg3 harg3 arg4 harg4 arg5 harg5 arg6 harg6 arg7 harg7 arg8 harg8 hc0 hc1 x0 x1 x2 x3 x4 xs0 = k0_pay2 xs0 x0 x1 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S512x1024) off2]
  simp only [View.readAt_eq_ld, harg2.read_unread, harg3.read_unread, harg8.read_unread, View.ld_unit_zero (S := S512x2560) off2,
    View.ld_unit_zero (S := S2560x1024) off2, View.ld_unit_zero (S := S512x1024) off2]

/-- and the output block is the epilogue of the finished accumulator. -/
theorem out_last (c : Dev nD) (i : grid0.Coords) (arg2 : Memref sig .tc .vmem S512x2560 .bf16) (harg2 : arg2.IsWhole) (arg3 : Memref sig .tc .vmem S2560x1024 .bf16) (harg3 : arg3.IsWhole) (arg4 : Memref sig .tc .vmem S1024 .f32) (harg4 : arg4.IsWhole) (arg5 : Memref sig .tc .vmem S1024x2 .bf16) (harg5 : arg5.IsWhole) (arg6 : Memref sig .tc .vmem S2 .f32) (harg6 : arg6.IsWhole) (arg7 : Memref sig .tc .vmem S512x2 .f32) (harg7 : arg7.IsWhole) (arg8 : Memref sig .tc .vmem S512x1024 .f32) (harg8 : arg8.IsWhole) (hc0 : ¬cond0_0 i) (hc1 : cond0_1 i) (x0 : Vec F S512x2560 .bf16) (x1 : Vec F S2560x1024 .bf16) (x2 : Vec F S1024 .f32) (x3 : Vec F S1024x2 .bf16) (x4 : Vec F S2 .f32) (xs0 : Vec F S512x1024 .f32) :
    out0_C_5 c i arg2 harg2 arg3 harg3 arg4 harg4 arg5 harg5 arg6 harg6 arg7 harg7 arg8 harg8 hc0 hc1 x0 x1 x2 x3 x4 xs0 = k0_pay3 (k0_pay2 xs0 x0 x1) x2 x3 x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S512x2) off2]
  simp only [View.readAt_eq_ld, harg2.read_unread, harg3.read_unread, harg4.read_unread, harg5.read_unread, harg6.read_unread,
    harg8.read_unread, View.ld_unit_zero (S := S512x2560) off2, View.ld_unit_zero (S := S2560x1024) off2,
    View.ld_unit_zero (S := S512x1024) off2, View.ld_unit_zero (S := S1024) off1, View.ld_unit_zero (S := S1024x2) off2,
    View.ld_unit_zero (S := S2) off1, View.readCov_unit_zero (S := S512x1024) _ off2]

end Cert.KernelIdeal.Pieces
end
-- ==== Proof.Spec.lean ====
/-
  The function both programs compute, and the one law between their two arrangements of it.

  One sample (a row of the flattened embeddings, 25600 numbers) goes through a 1024-wide hidden layer
  (a product with the first weight matrix, a bias, a clamp at zero), a 2-wide output layer (a product with
  the second weight matrix, a bias) and a softmax over the two outputs: the exponentials of the outputs minus
  their maximum, divided by the exponentials' sum. Everything is over the extended reals, with the operations
  as the ideal float instance has them.

  The kernel reaches the hidden layer's product in ten steps of 2560 terms each, added into a running total
  that starts at zero; the reference takes the sum of all 25600 terms at once. Addition of extended reals is
  associative and commutative, so the running total after step j is the sum of the first 2560 (j + 1) terms, and
  after the tenth step the whole sum: no finiteness is used.
-/
import Idealize.ShloMosaic.PureOps.Ideal
import Idealize.ShloMosaic.PureOps.Ideal.Laws
import Mathlib.Algebra.BigOperators.Fin
import Mathlib.Algebra.BigOperators.Intervals

noncomputable section
namespace Cert.Mlp
open Idealize.ShloMosaic
open scoped BigOperators

/-- Term k of a hidden unit's product: the sample's entry k times the weight from entry k to the unit (zero past
    the last entry, so that the terms are indexed by the natural numbers). -/
def term (x : Fin 25600 → EReal) (w : Fin 25600 → Fin 1024 → EReal) (h : Fin 1024) (k : ℕ) : EReal :=
  if hk : k < 25600 then x ⟨k, hk⟩ * w ⟨k, hk⟩ h else 0

/-- The sum of a hidden unit's first n terms. -/
def partialSum (x : Fin 25600 → EReal) (w : Fin 25600 → Fin 1024 → EReal) (h : Fin 1024) (n : ℕ) : EReal :=
  ∑ k ∈ Finset.range n, term x w h k

/-- A hidden unit before the bias: the sample against the unit's weights. -/
def hidden (x : Fin 25600 → EReal) (w : Fin 25600 → Fin 1024 → EReal) (h : Fin 1024) : EReal :=
  ∑ k : Fin 25600, x k * w k h

/-- Output l before the softmax: the clamped, biased hidden units against the output's weights, plus its bias. -/
def logit (a b1 : Fin 1024 → EReal) (w2 : Fin 1024 → Fin 2 → EReal) (b2 : Fin 2 → EReal) (l : Fin 2) : EReal :=
  (∑ h : Fin 1024, max (a h + b1 h) 0 * w2 h l) + b2 l

/-- The larger of the two outputs, taken from minus infinity as both programs take it. -/
def rowMax (z : Fin 2 → EReal) : EReal :=
  max (Ideal.ofBits .f32 0xFF800000#32) ((Finset.univ : Finset (Fin 2)).fold max (Ideal.ofBits .f32 0xFF800000#32) z)

/-- The softmax of the two outputs. -/
def softmax2 (z : Fin 2 → EReal) (l : Fin 2) : EReal :=
  Ideal.div (Ideal.exp (z l - rowMax z)) (∑ k : Fin 2, Ideal.exp (z k - rowMax z))

/-- The network on one sample. -/
def net (x : Fin 25600 → EReal) (w : Fin 25600 → Fin 1024 → EReal) (b1 : Fin 1024 → EReal)
    (w2 : Fin 1024 → Fin 2 → EReal) (b2 : Fin 2 → EReal) (l : Fin 2) : EReal :=
  softmax2 (logit (hidden x w) b1 w2 b2) l

/-- The result array: entry (r, l) is the network's output l on sample r, given every sample's flattened
    embeddings X, the first weights w (entry, unit), the biases, and the second weights w2 (unit, output). -/
def resultArr (X : Fin 4096 → Fin 25600 → EReal) (w : Fin 25600 → Fin 1024 → EReal) (b1 : Fin 1024 → EReal)
    (w2 : Fin 1024 → Fin 2 → EReal) (b2 : Fin 2 → EReal) : (⟨2, ![4096, 2]⟩ : Shape).Idx → EReal :=
  fun i => net (X (i 0)) w b1 w2 b2 (i 1)

/-- No terms sum to zero. -/
theorem partialSum_zero (x : Fin 25600 → EReal) (w : Fin 25600 → Fin 1024 → EReal) (h : Fin 1024) :
    partialSum x w h 0 = 0 := by
  unfold partialSum; rw [Finset.range_zero, Finset.sum_empty]

/-- One step of the running total: the first 2560 j terms plus the next 2560 are the first 2560 (j + 1). -/
theorem partialSum_step (x : Fin 25600 → EReal) (w : Fin 25600 → Fin 1024 → EReal) (h : Fin 1024) (j : ℕ)
    (g : Fin 2560 → EReal) (hg : ∀ kk : Fin 2560, g kk = term x w h (2560 * j + kk.val)) :
    partialSum x w h (2560 * j) + ∑ kk : Fin 2560, g kk = partialSum x w h (2560 * (j + 1)) := by
  unfold partialSum
  rw [show 2560 * (j + 1) = 2560 * j + 2560 by ring, Finset.sum_range_add,
    ← Fin.sum_univ_eq_sum_range (fun k => term x w h (2560 * j + k)) 2560]
  exact congrArg _ (Finset.sum_congr rfl fun kk _ => hg kk)

/-- All 25600 terms are the whole product. -/
theorem partialSum_all (x : Fin 25600 → EReal) (w : Fin 25600 → Fin 1024 → EReal) (h : Fin 1024) :
    partialSum x w h 25600 = hidden x w h := by
  unfold partialSum hidden
  rw [← Fin.sum_univ_eq_sum_range (fun k => term x w h k) 25600]
  refine Finset.sum_congr rfl fun k _ => ?_
  unfold term
  rw [dif_pos k.isLt]

/-- A term inside the range is the product it names. -/
theorem term_of_lt (x : Fin 25600 → EReal) (w : Fin 25600 → Fin 1024 → EReal) (h : Fin 1024) (k : ℕ) (hk : k < 25600) :
    term x w h k = x ⟨k, hk⟩ * w ⟨k, hk⟩ h := by
  unfold term; rw [dif_pos hk]

end Cert.Mlp
end
-- ==== Proof.LibKeepdims.lean ====
/-
  Two layout operations of a row-wise reduction kept as a column, read at an index: a length-a vector cast to an
  [a, 1] column, and an [a, 1] column broadcast along the rows of an [a, b] array. Together they say that a per-row
  value (a row's maximum, a row's sum) spread back over the row is that row's value at every column.
-/
import Idealize.ShloMosaic.Lib.Pipeline.Value
import Idealize.ShloMosaic.Lib.ValueIdx
import Idealize.ShloMosaic.Lib.ValueLayout

namespace Idealize.ShloMosaic.Keepdims
open Idealize.ShloMosaic Idealize.ShloMosaic.ValueIdx

variable {α : Type}

/-- A length-a vector cast to an [a, 1] column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a per-row value spread back over its row is the row's value at every column. -/
theorem column_spread_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

/-- A vector laid out as one row and repeated down the rows of an [a, b] array is, at (p, c), the vector at c. -/
theorem row_spread_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ x h1) h2 (ix2 p c) = x (ix1 c) :=
  (broadcastTo_1b_ab_apply _ h2 p c).trans (shapeCast_a_1a_apply x h1 0 c)

end Idealize.ShloMosaic.Keepdims
-- ==== Proof.KernelArith.lean ====
/-
  The kernel body's arithmetic read one entry at a time, over the extended reals.

  An accumulation step adds to entry (p, h) of the accumulator the 2560-term product of row p of the step's input
  block with column h of its weight block. The epilogue, on the finished accumulator, forms for row p the two
  outputs (bias, clamp at zero, the product with the second weights, bias) and their softmax; a row's maximum and a
  row's sum are reductions over the block's two columns, spread back over the row. Each is the corresponding piece
  of the specification at row p of the block.
-/
import proofs.«103160_j62405874811636_1_alg».proof.Proof.Gen.KernelIdeal.Skeleton
import proofs.«103160_j62405874811636_1_alg».proof.Proof.Spec
import proofs.«103160_j62405874811636_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Arith
open Cert.KernelIdeal Cert.KernelIdeal.Gen Idealize.ShloMosaic Idealize.ShloMosaic.ValueIdx Idealize.ShloMosaic.Keepdims
open scoped BigOperators

/-! ## The two products -/

theorem lhs_step_0 (i : S512x1024.Idx) (q : dot_S512x2560_S2560x1024_S512x1024_1_0_0_1_n_n.contr.Idx) :
    (dot_S512x2560_S2560x1024_S512x1024_1_0_0_1_n_n.lhsIdx i q 0).val = (i 0).val := by
  unfold DotDims.lhsIdx
  rw [dif_neg (show ¬(0 : Fin S512x2560.rank) ∈ dot_S512x2560_S2560x1024_S512x1024_1_0_0_1_n_n.lhsBatch by decide), dif_pos (show (0 : Fin S512x2560.rank) ∈ dot_S512x2560_S2560x1024_S512x1024_1_0_0_1_n_n.lhsNonContracting by decide)]
  rfl
theorem lhs_step_1 (i : S512x1024.Idx) (q : dot_S512x2560_S2560x1024_S512x1024_1_0_0_1_n_n.contr.Idx) :
    (dot_S512x2560_S2560x1024_S512x1024_1_0_0_1_n_n.lhsIdx i q 1).val = (q ⟨0, by decide⟩).val :=
  dot_S512x2560_S2560x1024_S512x1024_1_0_0_1_n_n.lhsIdx_val_of_single rfl i q
theorem rhs_step_0 (i : S512x1024.Idx) (q : dot_S512x2560_S2560x1024_S512x1024_1_0_0_1_n_n.contr.Idx) :
    (dot_S512x2560_S2560x1024_S512x1024_1_0_0_1_n_n.rhsIdx i q 0).val = (q ⟨0, by decide⟩).val :=
  dot_S512x2560_S2560x1024_S512x1024_1_0_0_1_n_n.rhsIdx_val_of_single rfl i q
theorem rhs_step_1 (i : S512x1024.Idx) (q : dot_S512x2560_S2560x1024_S512x1024_1_0_0_1_n_n.contr.Idx) :
    (dot_S512x2560_S2560x1024_S512x1024_1_0_0_1_n_n.rhsIdx i q 1).val = (i 1).val := by
  unfold DotDims.rhsIdx
  rw [dif_neg (show ¬(1 : Fin S2560x1024.rank) ∈ dot_S512x2560_S2560x1024_S512x1024_1_0_0_1_n_n.rhsBatch by decide), dif_pos (show (1 : Fin S2560x1024.rank) ∈ dot_S512x2560_S2560x1024_S512x1024_1_0_0_1_n_n.rhsNonContracting by decide)]
  rfl

/-- One step's product into a zero accumulator: row p of the input block against column q of the weight block. -/
theorem step_apply (a : FVec Ideal S512x2560 .bf16) (b : FVec Ideal S2560x1024 .bf16) (p : Fin 512) (q : Fin 1024) :
    matmul dot_S512x2560_S2560x1024_S512x1024_1_0_0_1_n_n none a b (constant (F := Ideal) S512x1024 .f32 0x00000000#32) (ix2 p q)
      = ∑ k : Fin 2560, a (ix2 p k) * b (ix2 k q) := by
  simp only [matmul]
  rw [Ideal.matmul_constant_zero_apply, ← Equiv.sum_comp (ValueIdx.contrEquiv1 dot_S512x2560_S2560x1024_S512x1024_1_0_0_1_n_n 2560 rfl rfl).symm]
  refine Finset.sum_congr rfl fun k _ => ?_
  have hk := ValueIdx.contrEquiv1_symm_val dot_S512x2560_S2560x1024_S512x1024_1_0_0_1_n_n 2560 rfl rfl k
  have el : dot_S512x2560_S2560x1024_S512x1024_1_0_0_1_n_n.lhsIdx (ix2 p q) ((ValueIdx.contrEquiv1 dot_S512x2560_S2560x1024_S512x1024_1_0_0_1_n_n 2560 rfl rfl).symm k) = ix2 p k := funext fun ax => Fin.ext (by
    match ax with
    | ⟨0, _⟩ => exact lhs_step_0 _ _
    | ⟨1, _⟩ => exact (lhs_step_1 _ _).trans hk)
  have er : dot_S512x2560_S2560x1024_S512x1024_1_0_0_1_n_n.rhsIdx (ix2 p q) ((ValueIdx.contrEquiv1 dot_S512x2560_S2560x1024_S512x1024_1_0_0_1_n_n 2560 rfl rfl).symm k) = ix2 k q := funext fun ax => Fin.ext (by
    match ax with
    | ⟨0, _⟩ => exact (rhs_step_0 _ _).trans hk
    | ⟨1, _⟩ => exact rhs_step_1 _ _)
  rw [el, er]

theorem lhs_outp_0 (i : S512x2.Idx) (q : dot_S512x1024_S1024x2_S512x2_1_0_0_1_n_n.contr.Idx) :
    (dot_S512x1024_S1024x2_S512x2_1_0_0_1_n_n.lhsIdx i q 0).val = (i 0).val := by
  unfold DotDims.lhsIdx
  rw [dif_neg (show ¬(0 : Fin S512x1024.rank) ∈ dot_S512x1024_S1024x2_S512x2_1_0_0_1_n_n.lhsBatch by decide), dif_pos (show (0 : Fin S512x1024.rank) ∈ dot_S512x1024_S1024x2_S512x2_1_0_0_1_n_n.lhsNonContracting by decide)]
  rfl
theorem lhs_outp_1 (i : S512x2.Idx) (q : dot_S512x1024_S1024x2_S512x2_1_0_0_1_n_n.contr.Idx) :
    (dot_S512x1024_S1024x2_S512x2_1_0_0_1_n_n.lhsIdx i q 1).val = (q ⟨0, by decide⟩).val :=
  dot_S512x1024_S1024x2_S512x2_1_0_0_1_n_n.lhsIdx_val_of_single rfl i q
theorem rhs_outp_0 (i : S512x2.Idx) (q : dot_S512x1024_S1024x2_S512x2_1_0_0_1_n_n.contr.Idx) :
    (dot_S512x1024_S1024x2_S512x2_1_0_0_1_n_n.rhsIdx i q 0).val = (q ⟨0, by decide⟩).val :=
  dot_S512x1024_S1024x2_S512x2_1_0_0_1_n_n.rhsIdx_val_of_single rfl i q
theorem rhs_outp_1 (i : S512x2.Idx) (q : dot_S512x1024_S1024x2_S512x2_1_0_0_1_n_n.contr.Idx) :
    (dot_S512x1024_S1024x2_S512x2_1_0_0_1_n_n.rhsIdx i q 1).val = (i 1).val := by
  unfold DotDims.rhsIdx
  rw [dif_neg (show ¬(1 : Fin S1024x2.rank) ∈ dot_S512x1024_S1024x2_S512x2_1_0_0_1_n_n.rhsBatch by decide), dif_pos (show (1 : Fin S1024x2.rank) ∈ dot_S512x1024_S1024x2_S512x2_1_0_0_1_n_n.rhsNonContracting by decide)]
  rfl

/-- The output layer's product: row p of the hidden block against column q of the second weights. -/
theorem outp_apply (a : FVec Ideal S512x1024 .bf16) (b : FVec Ideal S1024x2 .bf16) (p : Fin 512) (q : Fin 2) :
    matmul dot_S512x1024_S1024x2_S512x2_1_0_0_1_n_n none a b (constant (F := Ideal) S512x2 .f32 0x00000000#32) (ix2 p q)
      = ∑ k : Fin 1024, a (ix2 p k) * b (ix2 k q) := by
  simp only [matmul]
  rw [Ideal.matmul_constant_zero_apply, ← Equiv.sum_comp (ValueIdx.contrEquiv1 dot_S512x1024_S1024x2_S512x2_1_0_0_1_n_n 1024 rfl rfl).symm]
  refine Finset.sum_congr rfl fun k _ => ?_
  have hk := ValueIdx.contrEquiv1_symm_val dot_S512x1024_S1024x2_S512x2_1_0_0_1_n_n 1024 rfl rfl k
  have el : dot_S512x1024_S1024x2_S512x2_1_0_0_1_n_n.lhsIdx (ix2 p q) ((ValueIdx.contrEquiv1 dot_S512x1024_S1024x2_S512x2_1_0_0_1_n_n 1024 rfl rfl).symm k) = ix2 p k := funext fun ax => Fin.ext (by
    match ax with
    | ⟨0, _⟩ => exact lhs_outp_0 _ _
    | ⟨1, _⟩ => exact (lhs_outp_1 _ _).trans hk)
  have er : dot_S512x1024_S1024x2_S512x2_1_0_0_1_n_n.rhsIdx (ix2 p q) ((ValueIdx.contrEquiv1 dot_S512x1024_S1024x2_S512x2_1_0_0_1_n_n 1024 rfl rfl).symm k) = ix2 k q := funext fun ax => Fin.ext (by
    match ax with
    | ⟨0, _⟩ => exact (rhs_outp_0 _ _).trans hk
    | ⟨1, _⟩ => exact rhs_outp_1 _ _)
  rw [el, er]

/-! ## The accumulator -/

/-- The cleared accumulator holds zero. -/
theorem cleared_apply (j : S512x1024.Idx) : k0_pay1 (F := Ideal) j = 0 := by
  unfold k0_pay1
  simp only [shapeCast_self]
  exact Ideal.ofBits_zero_f32

/-- A step adds its product to the accumulator, entry by entry. -/
theorem step_eq (acc : FVec Ideal S512x1024 .f32) (xb : FVec Ideal S512x2560 .bf16) (wb : FVec Ideal S2560x1024 .bf16)
    (p : Fin 512) (h : Fin 1024) :
    k0_pay2 (F := Ideal) acc xb wb (ix2 p h) = acc (ix2 p h) + ∑ kk : Fin 2560, xb (ix2 p kk) * wb (ix2 kk h) := by
  unfold k0_pay2
  simp only [shapeCast_self]
  exact congrArg (acc (ix2 p h) + ·) (step_apply xb wb p h)

/-- One step of the running total at an entry: if the accumulator holds the sum of a hidden unit's first 2560 j terms
    and the step's blocks hold the sample's and the weights' next 2560 entries, the step leaves the sum of the first
    2560 (j + 1) terms. -/
theorem step_partial (x : Fin 25600 → EReal) (w : Fin 25600 → Fin 1024 → EReal) (j : ℕ) (hj : j < 10)
    (acc : FVec Ideal S512x1024 .f32) (xb : FVec Ideal S512x2560 .bf16) (wb : FVec Ideal S2560x1024 .bf16)
    (p : Fin 512) (h : Fin 1024)
    (hacc : acc (ix2 p h) = Mlp.partialSum x w h (2560 * j))
    (hx : ∀ kk : Fin 2560, xb (ix2 p kk) = x ⟨2560 * j + kk.val, by have := kk.isLt; omega⟩)
    (hw : ∀ kk : Fin 2560, wb (ix2 kk h) = w ⟨2560 * j + kk.val, by have := kk.isLt; omega⟩ h) :
    k0_pay2 (F := Ideal) acc xb wb (ix2 p h) = Mlp.partialSum x w h (2560 * (j + 1)) := by
  rw [step_eq, hacc]
  exact Mlp.partialSum_step x w h j _ fun kk => by
    rw [hx kk, hw kk, Mlp.term_of_lt x w h (2560 * j + kk.val) (by have := kk.isLt; omega)]

/-! ## The epilogue -/

/-- The two outputs of every row of a block, before the softmax, as the body computes them. -/
def logitsBlk (acc : FVec Ideal S512x1024 .f32) (b1 : FVec Ideal S1024 .f32) (w2 : FVec Ideal S1024x2 .bf16)
    (b2 : FVec Ideal S2 .f32) : FVec Ideal S512x2 .f32 :=
  addf (matmul dot_S512x1024_S1024x2_S512x2_1_0_0_1_n_n none
      (truncf .bf16 (maximumf (addf acc (broadcastTo S512x1024 (shapeCast S1x1024 b1 shapeCasts_S1024_S1x1024) broadcasts_S1x1024_S512x1024))
        (broadcast S512x1024 (Scalar.ofBits (F := Ideal) .f32 0x00000000#32))) bitsLt_bf16_f32)
      (shapeCast S1024x2 w2 shapeCasts_S1024x2_S1024x2) (constant (F := Ideal) S512x2 .f32 0x00000000#32))
    (broadcastTo S512x2 (shapeCast S1x2 b2 shapeCasts_S2_S1x2) broadcasts_S1x2_S512x2)

/-- Every row's maximum, from minus infinity, as the body computes it. -/
def rowMaxVec (z : FVec Ideal S512x2 .f32) : FVec Ideal S512 .f32 :=
  maximumf (broadcast S512 (Scalar.ofBits (F := Ideal) .f32 0xFF800000#32))
    (multiReduction (F := Ideal) .maximumf [1] S512 z 0xFF800000#32 reduces_S512x2_S512 (.inl rfl) rfl)

/-- The exponentials of the outputs minus their row's maximum. -/
def shifted (z : FVec Ideal S512x2 .f32) : FVec Ideal S512x2 .f32 :=
  exp (subf z (broadcastTo S512x2 (shapeCast S512x1 (rowMaxVec z) shapeCasts_S512_S512x1) broadcasts_S512x1_S512x2))

/-- The softmax of every row, as the body computes it. -/
def softBlk (z : FVec Ideal S512x2 .f32) : FVec Ideal S512x2 .f32 :=
  divf (shifted z) (broadcastTo S512x2 (shapeCast S512x1
    (multiReduction (F := Ideal) .add [1] S512 (shifted z) 0x00000000#32 reduces_S512x2_S512 (.inl rfl) rfl)
    shapeCasts_S512_S512x1) broadcasts_S512x1_S512x2)

/-- The epilogue is the softmax of the outputs. -/
theorem epilogue_eq (acc : FVec Ideal S512x1024 .f32) (b1 : FVec Ideal S1024 .f32) (w2 : FVec Ideal S1024x2 .bf16)
    (b2 : FVec Ideal S2 .f32) : k0_pay3 (F := Ideal) acc b1 w2 b2 = softBlk (logitsBlk acc b1 w2 b2) := rfl

/-- A row's two columns, as the index the column reduction inserts. -/
theorem lift_eq (p : Fin 512) (k : Fin 2) : reduces_S512x2_S512.lift (ix1 p) k = ix2 p k :=
  funext fun ax => Fin.ext (by match ax with | ⟨0, _⟩ => rfl | ⟨1, _⟩ => rfl)

/-- Row p's outputs are the specification's, of row p of the accumulator. -/
theorem logitsBlk_apply (acc : FVec Ideal S512x1024 .f32) (b1 : FVec Ideal S1024 .f32) (w2 : FVec Ideal S1024x2 .bf16)
    (b2 : FVec Ideal S2 .f32) (p : Fin 512) (l : Fin 2) :
    logitsBlk acc b1 w2 b2 (ix2 p l)
      = Mlp.logit (fun h => acc (ix2 p h)) (fun h => b1 (ix1 h)) (fun h l' => w2 (ix2 h l')) (fun l' => b2 (ix1 l')) l := by
  unfold logitsBlk Mlp.logit
  rw [addf_apply, row_spread_apply b2 shapeCasts_S2_S1x2 broadcasts_S1x2_S512x2 p l, shapeCast_self]
  refine congrArg (· + b2 (ix1 l)) ?_
  refine (outp_apply _ w2 p l).trans (Finset.sum_congr rfl fun h _ => ?_)
  rw [truncf_apply, maximumf_apply, addf_apply, row_spread_apply b1 shapeCasts_S1024_S1x1024 broadcasts_S1x1024_S512x1024 p h,
    broadcast_apply]
  exact congrArg (fun t => max (acc (ix2 p h) + b1 (ix1 h)) t * w2 (ix2 h l)) Ideal.ofBits_zero_f32

/-- Row p's maximum is the specification's. -/
theorem rowMaxVec_apply (z : FVec Ideal S512x2 .f32) (p : Fin 512) :
    rowMaxVec z (ix1 p) = Mlp.rowMax (fun k => z (ix2 p k)) := by
  unfold rowMaxVec Mlp.rowMax
  rw [maximumf_apply, broadcast_apply]
  refine congrArg (max _) ?_
  refine (Ideal.multiReduction_maximumf_single z 0xFF800000#32 reduces_S512x2_S512 (.inl rfl) rfl (ix1 p)).trans ?_
  exact congrArg (fun f => Finset.fold max (Ideal.ofBits .f32 0xFF800000#32) f Finset.univ) (funext fun k => congrArg z (lift_eq p k))

/-- An output's shifted exponential. -/
theorem shifted_apply (z : FVec Ideal S512x2 .f32) (p : Fin 512) (l : Fin 2) :
    shifted z (ix2 p l) = Ideal.exp (z (ix2 p l) - Mlp.rowMax (fun k => z (ix2 p k))) := by
  unfold shifted
  show Ideal.exp (z (ix2 p l) - broadcastTo S512x2 (shapeCast S512x1 (rowMaxVec z) shapeCasts_S512_S512x1) broadcasts_S512x1_S512x2 (ix2 p l)) = _
  rw [column_spread_apply (rowMaxVec z) shapeCasts_S512_S512x1 broadcasts_S512x1_S512x2 p l, rowMaxVec_apply]

/-- Row p's softmax is the specification's. -/
theorem softBlk_apply (z : FVec Ideal S512x2 .f32) (p : Fin 512) (l : Fin 2) :
    softBlk z (ix2 p l) = Mlp.softmax2 (fun k => z (ix2 p k)) l := by
  unfold softBlk Mlp.softmax2
  rw [divf_apply, column_spread_apply _ shapeCasts_S512_S512x1 broadcasts_S512x1_S512x2 p l, shifted_apply]
  refine congrArg (Ideal.div _) ?_
  refine (Ideal.multiReduction_add_single (shifted z) 0x00000000#32 reduces_S512x2_S512 (.inl rfl) rfl (ix1 p)).trans ?_
  exact Finset.sum_congr rfl fun k _ => (congrArg (shifted z) (lift_eq p k)).trans (shifted_apply z p k)

/-- THE EPILOGUE AT AN ENTRY: the network's output l on the sample whose hidden layer's products row p of the accumulator holds. -/
theorem epilogue_apply (acc : FVec Ideal S512x1024 .f32) (b1 : FVec Ideal S1024 .f32) (w2 : FVec Ideal S1024x2 .bf16)
    (b2 : FVec Ideal S2 .f32) (p : Fin 512) (l : Fin 2) :
    k0_pay3 (F := Ideal) acc b1 w2 b2 (ix2 p l)
      = Mlp.softmax2 (Mlp.logit (fun h => acc (ix2 p h)) (fun h => b1 (ix1 h)) (fun h l' => w2 (ix2 h l')) (fun l' => b2 (ix1 l'))) l := by
  rw [epilogue_eq, softBlk_apply]
  exact congrArg (fun z => Mlp.softmax2 z l) (funext fun k => logitsBlk_apply acc b1 w2 b2 p k)

end Cert.KernelIdeal.Arith
end
-- ==== Proof.KernelBlocks.lean ====
/-
  What the kernel's windows hold, in terms of the program's arguments.

  Before the kernel runs, the host code zeroes row 0 of the embedding table, looks every token up in it (negative
  tokens counted from the table's end), flattens each sample's 200 embeddings into one row of 25600 numbers, and
  transposes the two weight matrices; the changes of float format are the identity over the extended reals. The grid
  has 8 row blocks times 10 reduction steps: at point t = 10 i + j the first window holds rows 512 i … 512 i + 511
  and columns 2560 j … 2560 j + 2559 of the flattened samples, the second rows 2560 j … of the transposed first
  weights; the biases and the second weights are held whole; the output window is rows 512 i … of the result.
-/
import proofs.«103160_j62405874811636_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section
namespace Cert.KernelIdeal.Blocks
open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The host code before the kernel -/

/-- Every sample's embeddings, flattened: the table with row 0 zeroed, looked up at the tokens, 200 rows of 128 laid
    end to end. Never opened: the reference computes the same array. -/
def flat (x0 : (⟨S4096x200, .i32⟩ : BufTy).Contents (Elt Ideal)) (x1 : (⟨S50000x128, .f32⟩ : BufTy).Contents (Elt Ideal)) :
    (⟨S4096x25600, .f32⟩ : BufTy).Contents (Elt Ideal) :=
  shapeCast S4096x25600 (Host.gather gather_S50000x128_S4096x200x1_S4096x200x128_2_0_n_n_0_2_1128
    (Host.scatter scatter_S50000x128_S1_S128_0_0_0_0 (fun _ b => b) x1 (broadcastInDim S1 ![] bcast_S_S1 (constantI S_ 32 0#32))
      (broadcastInDim S128 ![] bcast_S_S128 (constant (F := Ideal) S_ .f32 0x00000000#32)))
    (broadcastInDim S4096x200x1 ![0, 1] bcast_S4096x200_S4096x200x1_0_1
      (select (cmpi .slt x0 (broadcastInDim S4096x200 ![] bcast_S_S4096x200 (constantI S_ 32 0#32)))
        (addi x0 (broadcastInDim S4096x200 ![] bcast_S_S4096x200 (constantI S_ 32 50000#32))) x0)))
    shapeCasts_S4096x200x128_S4096x25600

/-- The first window's array: the flattened samples. -/
theorem samples_eq (c : Dev nD) :
    @Eq (FVec Ideal S4096x25600 .bf16) (V m c main_v11)
      (truncf (F := Ideal) .bf16 (flat (m ((c : Thread nD τ).loc main_arg0)) (m ((c : Thread nD τ).loc main_arg1))) bitsLt_bf16_f32) := by
  dsimp only [V, hostOps0]; after_results; rfl

/-- The second window's array: the first weights, transposed. -/
theorem weights1_eq (c : Dev nD) :
    @Eq (FVec Ideal S25600x1024 .bf16) (V m c main_v13)
      (truncf (F := Ideal) .bf16 (transpose S25600x1024 [1, 0] (m ((c : Thread nD τ).loc main_arg2)) transposes_S1024x25600_S25600x1024_1_0) bitsLt_bf16_f32) := by
  dsimp only [V, hostOps0]; after_results

/-- The fourth window's array: the second weights, transposed. -/
theorem weights2_eq (c : Dev nD) :
    @Eq (FVec Ideal S1024x2 .bf16) (V m c main_v15)
      (truncf (F := Ideal) .bf16 (transpose S1024x2 [1, 0] (m ((c : Thread nD τ).loc main_arg4)) transposes_S2x1024_S1024x2_1_0) bitsLt_bf16_f32) := by
  dsimp only [V, hostOps0]; after_results

/-! ## Where each window's block sits -/

/-- The grid has 80 points. -/
theorem point_lt (t : Fin cfg0.N) : t.val < 80 := lt_of_lt_of_eq t.isLt N_0

/-- The printed index maps, decided over the grid. -/
theorem index0 : ∀ t : Fin cfg0.N, win0_0.index t (0 : Fin 2) = t.val / 10 ∧ win0_0.index t (1 : Fin 2) = t.val % 10 :=
  (by decide +kernel : ∀ t : Fin grid0.N, _)
theorem index1 : ∀ t : Fin cfg0.N, win0_1.index t (0 : Fin 2) = t.val % 10 ∧ win0_1.index t (1 : Fin 2) = 0 :=
  (by decide +kernel : ∀ t : Fin grid0.N, _)
theorem index2 : ∀ t : Fin cfg0.N, win0_2.index t (0 : Fin 1) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 1) = 0 :=
  (by decide +kernel : ∀ t : Fin grid0.N, _)
theorem index5 : ∀ t : Fin cfg0.N, win0_5.index t (0 : Fin 2) = t.val / 10 ∧ win0_5.index t (1 : Fin 2) = 0 :=
  (by decide +kernel : ∀ t : Fin grid0.N, _)

/-- The sample that row p of point t's row block is. -/
def rowOf (t : Fin cfg0.N) (p : Fin 512) : Fin 4096 :=
  ⟨512 * (t.val / 10) + p.val, by have := point_lt t; have := p.isLt; omega⟩

/-- The entry of a sample that column kk of point t's reduction step is. -/
def colOf (t : Fin cfg0.N) (kk : Fin 2560) : Fin 25600 :=
  ⟨2560 * (t.val % 10) + kk.val, by have := kk.isLt; omega⟩

/-- The first window's block: 512 samples, 2560 of their entries. -/
theorem samplesBlk_apply (c : Dev nD) (t : Fin cfg0.N) (p : Fin 512) (kk : Fin 2560) :
    (iblk m c 0 t : FVec Ideal S512x2560 .bf16) (ix2 p kk) = V m c main_v11 (ix2 (rowOf t p) (colOf t kk)) := by
  obtain ⟨e0, e1⟩ := index0 t
  unfold iblk
  rw [View.read_apply]
  show V m c main_v11 _ = V m c main_v11 _
  refine congrArg (V m c main_v11) (funext fun a => Fin.ext ?_)
  match a with
  | ⟨0, _⟩ => show win0_0.index t (0 : Fin 2) * 512 + 1 * p.val = 512 * (t.val / 10) + p.val; rw [e0]; omega
  | ⟨1, _⟩ => show win0_0.index t (1 : Fin 2) * 2560 + 1 * kk.val = 2560 * (t.val % 10) + kk.val; rw [e1]; omega

/-- The second window's block: 2560 rows of the transposed first weights. -/
theorem weights1Blk_apply (c : Dev nD) (t : Fin cfg0.N) (kk : Fin 2560) (h : Fin 1024) :
    (iblk m c 1 t : FVec Ideal S2560x1024 .bf16) (ix2 kk h) = V m c main_v13 (ix2 (colOf t kk) h) := by
  obtain ⟨e0, e1⟩ := index1 t
  unfold iblk
  rw [View.read_apply]
  show V m c main_v13 _ = V m c main_v13 _
  refine congrArg (V m c main_v13) (funext fun a => Fin.ext ?_)
  match a with
  | ⟨0, _⟩ => show win0_1.index t (0 : Fin 2) * 2560 + 1 * kk.val = 2560 * (t.val % 10) + kk.val; rw [e0]; omega
  | ⟨1, _⟩ => show win0_1.index t (1 : Fin 2) * 1024 + 1 * h.val = h.val; rw [e1]; omega

/-- The third window holds the first bias whole. -/
theorem bias1Blk_apply (c : Dev nD) (t : Fin cfg0.N) (h : Fin 1024) :
    (iblk m c 2 t : FVec Ideal S1024 .f32) (ix1 h) = V m c main_arg3 (ix1 h) := by
  have e0 := index2 t
  unfold iblk
  rw [View.read_apply]
  show V m c main_arg3 _ = V m c main_arg3 _
  refine congrArg (V m c main_arg3) (funext fun a => Fin.ext ?_)
  match a with
  | ⟨0, _⟩ => show win0_2.index t (0 : Fin 1) * 1024 + 1 * h.val = h.val; rw [e0]; omega

/-- The fourth window holds the transposed second weights whole. -/
theorem weights2Blk_apply (c : Dev nD) (t : Fin cfg0.N) (h : Fin 1024) (l : Fin 2) :
    (iblk m c 3 t : FVec Ideal S1024x2 .bf16) (ix2 h l) = V m c main_v15 (ix2 h l) := by
  obtain ⟨e0, e1⟩ := index3 t
  unfold iblk
  rw [View.read_apply]
  show V m c main_v15 _ = V m c main_v15 _
  refine congrArg (V m c main_v15) (funext fun a => Fin.ext ?_)
  match a with
  | ⟨0, _⟩ => show win0_3.index t (0 : Fin 2) * 1024 + 1 * h.val = h.val; rw [e0]; omega
  | ⟨1, _⟩ => show win0_3.index t (1 : Fin 2) * 2 + 1 * l.val = l.val; rw [e1]; omega

/-- The fifth window holds the second bias whole. -/
theorem bias2Blk_apply (c : Dev nD) (t : Fin cfg0.N) (l : Fin 2) :
    (iblk m c 4 t : FVec Ideal S2 .f32) (ix1 l) = V m c main_arg5 (ix1 l) := by
  have e0 := index4 t
  unfold iblk
  rw [View.read_apply]
  show V m c main_arg5 _ = V m c main_arg5 _
  refine congrArg (V m c main_arg5) (funext fun a => Fin.ext ?_)
  match a with
  | ⟨0, _⟩ => show win0_4.index t (0 : Fin 1) * 2 + 1 * l.val = l.val; rw [e0]; omega

end Cert.KernelIdeal.Blocks
end
-- ==== Proof.KernelValue.lean ====
/-
  What the kernel leaves in its result array.

  Within row block i the grid visits the ten reduction steps in order, so the accumulator after step j holds, at
  (p, h), the first 2560 (j + 1) terms of hidden unit h on sample 512 i + p: zero plus the first step's product at
  j = 0, the step before plus this step's product afterwards. After the tenth step that is the unit's whole sum, and
  the output block written at that point is the network's two outputs on each of the block's 512 samples. The output
  window's blocks at the points that write back tile the [4096, 2] result, so the result array is the network's
  output on every sample; finally the windows' arrays are named by the program's arguments.
-/
import proofs.«103160_j62405874811636_1_alg».proof.Proof.Gen.KernelIdeal.Value
import proofs.«103160_j62405874811636_1_alg».proof.Proof.CasePieces
import proofs.«103160_j62405874811636_1_alg».proof.Proof.KernelArith
import proofs.«103160_j62405874811636_1_alg».proof.Proof.KernelBlocks
import proofs.«103160_j62405874811636_1_alg».proof.Proof.Spec
import Idealize.ShloMosaic.Lib.Pipeline.Value
import Idealize.ShloMosaic.Lib.ValueIdx
import Idealize.ShloMosaic.Lib.ValueLayout

set_option maxRecDepth 16384

noncomputable section
namespace Cert.KernelIdeal.RunValue
open Cert.KernelIdeal Cert.KernelIdeal.Gen Cert.KernelIdeal.Blocks Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Names for the windows' arrays and blocks -/

/-- The windows' arrays as the kernel finds them, by coordinates. -/
abbrev samples (c : Dev nD) (r : Fin 4096) (k : Fin 25600) : EReal := (V m c main_v11 : FVec Ideal S4096x25600 .bf16) (ix2 r k)
abbrev weights1 (c : Dev nD) (k : Fin 25600) (h : Fin 1024) : EReal := (V m c main_v13 : FVec Ideal S25600x1024 .bf16) (ix2 k h)
abbrev bias1 (c : Dev nD) (h : Fin 1024) : EReal := (V m c main_arg3 : FVec Ideal S1024 .f32) (ix1 h)
abbrev weights2 (c : Dev nD) (h : Fin 1024) (l : Fin 2) : EReal := (V m c main_v15 : FVec Ideal S1024x2 .bf16) (ix2 h l)
abbrev bias2 (c : Dev nD) (l : Fin 2) : EReal := (V m c main_arg5 : FVec Ideal S2 .f32) (ix1 l)

/-- The input blocks at a point. -/
abbrev xBlk (c : Dev nD) (t : Fin cfg0.N) : FVec Ideal S512x2560 .bf16 := iblk m c 0 t
abbrev wBlk (c : Dev nD) (t : Fin cfg0.N) : FVec Ideal S2560x1024 .bf16 := iblk m c 1 t
abbrev b1Blk (c : Dev nD) (t : Fin cfg0.N) : FVec Ideal S1024 .f32 := iblk m c 2 t
abbrev w2Blk (c : Dev nD) (t : Fin cfg0.N) : FVec Ideal S1024x2 .bf16 := iblk m c 3 t
abbrev b2Blk (c : Dev nD) (t : Fin cfg0.N) : FVec Ideal S2 .f32 := iblk m c 4 t

/-- The accumulator after point n. -/
abbrev accAt (c : Dev nD) (n : ℕ) (hn : n < cfg0.N) : FVec Ideal S512x1024 .f32 := (outsAt0 m c n hn).2

/-! ## The accumulator, point by point -/

/-- At a row block's first step the accumulator is zero plus the step's product. -/
theorem acc_first (c : Dev nD) (n : ℕ) (hn : n < cfg0.N) (h0 : n % 10 = 0) (h1 : ¬n % 10 = 9) :
    accAt m c n hn = k0_pay2 (F := Ideal) (k0_pay1 (F := Ideal)) (xBlk m c ⟨n, hn⟩) (wBlk m c ⟨n, hn⟩) := by
  show (outsAt0 m c (⟨n, hn⟩ : Fin cfg0.N).val (⟨n, hn⟩ : Fin cfg0.N).isLt).2 = _
  rw [outsAt0_A m c ⟨n, hn⟩ h0 h1]
  dsimp only
  exact Pieces.acc_first (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) scM0_0 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N))

/-- At a middle step it is the step before plus the step's product. -/
theorem acc_middle (c : Dev nD) (n : ℕ) (hn : n < cfg0.N) (h0 : ¬n % 10 = 0) (h1 : ¬n % 10 = 9) :
    accAt m c n hn = k0_pay2 (F := Ideal) (accAt m c (n - 1) (Nat.lt_of_le_of_lt (Nat.sub_le _ _) hn)) (xBlk m c ⟨n, hn⟩) (wBlk m c ⟨n, hn⟩) := by
  show (outsAt0 m c (⟨n, hn⟩ : Fin cfg0.N).val (⟨n, hn⟩ : Fin cfg0.N).isLt).2 = _
  rw [outsAt0_B m c ⟨n, hn⟩ h0 h1]
  dsimp only
  exact Pieces.acc_middle (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) scM0_0 (Memref.isWhole_whole _) (fun h => h0 ((hcond0_0 (⟨n, hn⟩ : Fin cfg0.N)).mp h)) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (outsAt0 m c ((⟨n, hn⟩ : Fin cfg0.N).val - 1) (Nat.lt_of_le_of_lt (Nat.sub_le _ _) (⟨n, hn⟩ : Fin cfg0.N).isLt)).2

/-- At the last step likewise, -/
theorem acc_last (c : Dev nD) (n : ℕ) (hn : n < cfg0.N) (h0 : ¬n % 10 = 0) (h1 : n % 10 = 9) :
    accAt m c n hn = k0_pay2 (F := Ideal) (accAt m c (n - 1) (Nat.lt_of_le_of_lt (Nat.sub_le _ _) hn)) (xBlk m c ⟨n, hn⟩) (wBlk m c ⟨n, hn⟩) := by
  show (outsAt0 m c (⟨n, hn⟩ : Fin cfg0.N).val (⟨n, hn⟩ : Fin cfg0.N).isLt).2 = _
  rw [outsAt0_C m c ⟨n, hn⟩ h0 h1]
  dsimp only
  exact Pieces.acc_last (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) scM0_0 (Memref.isWhole_whole _) (fun h => h0 ((hcond0_0 (⟨n, hn⟩ : Fin cfg0.N)).mp h)) ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (outsAt0 m c ((⟨n, hn⟩ : Fin cfg0.N).val - 1) (Nat.lt_of_le_of_lt (Nat.sub_le _ _) (⟨n, hn⟩ : Fin cfg0.N).isLt)).2

/-- and the output block written there is the epilogue of the finished accumulator. -/
theorem out_last (c : Dev nD) (t : Fin cfg0.N) (h0 : ¬t.val % 10 = 0) (h1 : t.val % 10 = 9) :
    (outsAt0 m c t.val t.isLt).1 = k0_pay3 (F := Ideal) (accAt m c t.val t.isLt) (b1Blk m c t) (w2Blk m c t) (b2Blk m c t) := by
  rw [acc_last m c t.val t.isLt h0 h1]
  rw [outsAt0_C m c t h0 h1]
  dsimp only
  exact Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- THE RUNNING TOTAL: after point n the accumulator holds, at (p, h), the first 2560 (n % 10 + 1) terms of hidden unit h
    on the sample that row p of the point's row block is. -/
theorem acc_partial (c : Dev nD) : ∀ (n : ℕ) (hn : n < cfg0.N) (p : Fin 512) (h : Fin 1024),
    accAt m c n hn (ix2 p h)
      = Mlp.partialSum (samples m c (rowOf ⟨n, hn⟩ p)) (weights1 m c) h (2560 * (n % 10 + 1)) := by
  intro n
  induction n using Nat.strong_induction_on with
  | _ n ih =>
    intro hn p h
    have hN : n < 80 := lt_of_lt_of_eq hn N_0
    have hx : ∀ kk : Fin 2560, xBlk m c ⟨n, hn⟩ (ix2 p kk)
        = samples m c (rowOf ⟨n, hn⟩ p) ⟨2560 * (n % 10) + kk.val, by have := kk.isLt; omega⟩ :=
      fun kk => samplesBlk_apply m c ⟨n, hn⟩ p kk
    have hw : ∀ kk : Fin 2560, wBlk m c ⟨n, hn⟩ (ix2 kk h)
        = weights1 m c ⟨2560 * (n % 10) + kk.val, by have := kk.isLt; omega⟩ h :=
      fun kk => weights1Blk_apply m c ⟨n, hn⟩ kk h
    by_cases h0 : n % 10 = 0
    · have h1 : ¬n % 10 = 9 := by omega
      rw [acc_first m c n hn h0 h1]
      refine Arith.step_partial _ _ (n % 10) (by omega) _ _ _ p h ?_ hx hw
      rw [Arith.cleared_apply, h0, Nat.mul_zero, Mlp.partialSum_zero]
    · have IH := ih (n - 1) (by omega) (Nat.lt_of_le_of_lt (Nat.sub_le _ _) hn) p h
      have e1 : rowOf ⟨n - 1, Nat.lt_of_le_of_lt (Nat.sub_le _ _) hn⟩ p = rowOf ⟨n, hn⟩ p :=
        Fin.ext (by show 512 * ((n - 1) / 10) + p.val = 512 * (n / 10) + p.val; omega)
      have e2 : (n - 1) % 10 + 1 = n % 10 := by omega
      rw [e1, e2] at IH
      by_cases h1 : n % 10 = 9
      · rw [acc_last m c n hn h0 h1]
        exact Arith.step_partial _ _ (n % 10) (by omega) _ _ _ p h IH hx hw
      · rw [acc_middle m c n hn h0 h1]
        exact Arith.step_partial _ _ (n % 10) (by omega) _ _ _ p h IH hx hw

/-! ## The output block and the result array -/

/-- The result array: the network's outputs on every sample, over the arrays the kernel finds. -/
abbrev result (c : Dev nD) : FVec Ideal S4096x2 .f32 :=
  Mlp.resultArr (samples m c) (weights1 m c) (bias1 m c) (weights2 m c) (bias2 m c)

/-- The block written at a row block's last step is the network's outputs on the block's samples. -/
theorem outBlk_eq (c : Dev nD) (t : Fin cfg0.N) (h1 : t.val % 10 = 9) :
    (outsAt0 m c t.val t.isLt).1 = fun j : S512x2.Idx => result m c (ix2 (rowOf t (j 0)) (j 1)) := by
  have h0 : ¬t.val % 10 = 0 := by omega
  funext j
  obtain ⟨p, l, rfl⟩ : ∃ (p : Fin 512) (l : Fin 2), j = ix2 p l := ⟨j 0, j 1, eq_ix2 j⟩
  rw [out_last m c t h0 h1, Arith.epilogue_apply]
  show _ = Mlp.net (samples m c (rowOf t p)) (weights1 m c) (bias1 m c) (weights2 m c) (bias2 m c) l
  unfold Mlp.net
  have ea : (fun h : Fin 1024 => accAt m c t.val t.isLt (ix2 p h)) = Mlp.hidden (samples m c (rowOf t p)) (weights1 m c) :=
    funext fun h => by
      rw [acc_partial m c t.val t.isLt p h, show 2560 * (t.val % 10 + 1) = 25600 by omega]
      exact Mlp.partialSum_all _ _ h
  have eb : (fun h : Fin 1024 => b1Blk m c t (ix1 h)) = bias1 m c := funext fun h => bias1Blk_apply m c t h
  have ec : (fun (h : Fin 1024) (l' : Fin 2) => w2Blk m c t (ix2 h l')) = weights2 m c :=
    funext fun h => funext fun l' => weights2Blk_apply m c t h l'
  have ed : (fun l' : Fin 2 => b2Blk m c t (ix1 l')) = bias2 m c := funext fun l' => bias2Blk_apply m c t l'
  rw [ea, eb, ec, ed]

/-- Row p of point t's output block is row 512 (t / 10) + p of the result array, whatever the array holds. -/
theorem outBlk_read (t : Fin cfg0.N) (G : FVec Ideal S4096x2 .f32) :
    (cfg0.win 5).cut (grid0.coords t) (fun j : S512x2.Idx => G (ix2 (rowOf t (j 0)) (j 1)))
      = ((cfg0.win 5).blk t).view.read (Elt Ideal) G := by
  obtain ⟨e0, e1⟩ := index5 t
  funext j
  rw [View.read_apply]
  show G _ = G _
  refine congrArg G (funext fun a => Fin.ext ?_)
  match a with
  | ⟨0, _⟩ => show 512 * (t.val / 10) + (j 0).val = win0_5.index t (0 : Fin 2) * 512 + 1 * (j 0).val; rw [e0]; omega
  | ⟨1, _⟩ => show (j 1).val = win0_5.index t (1 : Fin 2) * 2 + 1 * (j 1).val; rw [e1]; omega

/-- WHAT A POINT WRITES BACK is its block of the result array. -/
theorem flushed_eq (c : Dev nD) (t : Fin cfg0.N) (hf : (cfg0.win 5).flush t = true) :
    (dats m 0 c).flushed 5 t = ((cfg0.win 5).blk t).view.read (Elt Ideal) (result m c) := by
  have h1 : t.val % 10 = 9 := (flush0_5 t).mp hf
  rw [Value.flushed5 m c t, outBlk_eq m c t h1]
  exact outBlk_read t (result m c)

/-- Every entry of the result is in the block of its row block's last point. -/
theorem cover (i : S4096x2.Idx) : ∃ t : Fin cfg0.N, (cfg0.win 5).flush t = true ∧ i ∈ ((cfg0.win 5).blk t).view.set := by
  have hi0 : (i 0).val < 4096 := (i 0).isLt
  have hi1 : (i 1).val < 2 := (i 1).isLt
  obtain ⟨t, ht⟩ : ∃ t : Fin cfg0.N, t.val = 10 * ((i 0).val / 512) + 9 :=
    ⟨⟨10 * ((i 0).val / 512) + 9, by rw [show cfg0.N = 80 from N_0]; omega⟩, rfl⟩
  obtain ⟨e0, e1⟩ := index5 t
  refine ⟨t, (flush0_5 t).mpr (by omega), ?_⟩
  show i ∈ ((View.whole main_v16).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    rw [e0]; omega
  | ⟨1, _⟩ =>
    show win0_5.index t (1 : Fin 2) * 2 ≤ (i 1).val ∧ (i 1).val < win0_5.index t (1 : Fin 2) * 2 + 2
    rw [e1]; omega

/-- THE RESULT ARRAY after the run. -/
theorem final (c : Dev nD) : (dats m 0 c).arrAt 5 cfg0.N = result m c :=
  (dats m 0 c).arrAt_eq_of_cover 5 (result m c) (flushed_eq m c) cover

/-! ## In terms of the program's arguments -/

/-- The result array as a function of the six arguments. -/
abbrev resultOfArgs (c : Dev nD) : FVec Ideal S4096x2 .f32 :=
  Mlp.resultArr (fun r k => flat (m ((c : Thread nD τ).loc main_arg0)) (m ((c : Thread nD τ).loc main_arg1)) (ix2 r k))
    (fun k h => (m ((c : Thread nD τ).loc main_arg2) : FVec Ideal S1024x25600 .f32) (ix2 h k))
    (fun h => (m ((c : Thread nD τ).loc main_arg3) : FVec Ideal S1024 .f32) (ix1 h))
    (fun h l => (m ((c : Thread nD τ).loc main_arg4) : FVec Ideal S2x1024 .f32) (ix2 l h))
    (fun l => (m ((c : Thread nD τ).loc main_arg5) : FVec Ideal S2 .f32) (ix1 l))

theorem result_eq (c : Dev nD) : result m c = resultOfArgs m c := by
  have e1 : samples m c = fun r k => flat (m ((c : Thread nD τ).loc main_arg0)) (m ((c : Thread nD τ).loc main_arg1)) (ix2 r k) :=
    funext fun r => funext fun k => (congrFun (samples_eq m c) (ix2 r k)).trans
      (truncf_apply (flat (m ((c : Thread nD τ).loc main_arg0)) (m ((c : Thread nD τ).loc main_arg1))) bitsLt_bf16_f32 (ix2 r k))
  have e2 : weights1 m c = fun k h => (m ((c : Thread nD τ).loc main_arg2) : FVec Ideal S1024x25600 .f32) (ix2 h k) :=
    funext fun k => funext fun h => ((congrFun (weights1_eq m c) (ix2 k h)).trans
      (truncf_apply (transpose S25600x1024 [1, 0] (m ((c : Thread nD τ).loc main_arg2)) transposes_S1024x25600_S25600x1024_1_0) bitsLt_bf16_f32 (ix2 k h))).trans
      (transpose_ix2_apply (m ((c : Thread nD τ).loc main_arg2)) transposes_S1024x25600_S25600x1024_1_0 k h)
  have e3 : bias1 m c = fun h => (m ((c : Thread nD τ).loc main_arg3) : FVec Ideal S1024 .f32) (ix1 h) :=
    funext fun h => congrFun (V_main_arg3 m c) (ix1 h)
  have e4 : weights2 m c = fun h l => (m ((c : Thread nD τ).loc main_arg4) : FVec Ideal S2x1024 .f32) (ix2 l h) :=
    funext fun h => funext fun l => ((congrFun (weights2_eq m c) (ix2 h l)).trans
      (truncf_apply (transpose S1024x2 [1, 0] (m ((c : Thread nD τ).loc main_arg4)) transposes_S2x1024_S1024x2_1_0) bitsLt_bf16_f32 (ix2 h l))).trans
      (transpose_ix2_apply (m ((c : Thread nD τ).loc main_arg4)) transposes_S2x1024_S1024x2_1_0 h l)
  have e5 : bias2 m c = fun l => (m ((c : Thread nD τ).loc main_arg5) : FVec Ideal S2 .f32) (ix1 l) :=
    funext fun l => congrFun (V_main_arg5 m c) (ix1 l)
  show Mlp.resultArr (samples m c) (weights1 m c) (bias1 m c) (weights2 m c) (bias2 m c) = _
  rw [e1, e2, e3, e4, e5]

/-- THE KERNEL'S RUN: every weakly fair execution ends with the result array at the network's outputs on every
    sample, as a function of the arguments, and the arguments unchanged. -/
theorem run : θ_run defs (onTc (τ := τ) (main (F := Ideal))) ⟨m, fun _ => 0, ρ⟩ fun r => ∀ c : Dev nD,
      r.2.mem ((c : Thread nD τ).loc main_v16) = resultOfArgs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (result_eq m c)), (h c).2⟩)
    (Value.run_blocks m ρ)

end Cert.KernelIdeal.RunValue
end
-- ==== Proof.ReferenceValue.lean ====
/-
  The reference program computes the specification.

  Its host operations, read one at a time at an entry: the product of the flattened samples with the transposed first
  weights is each hidden unit's 25600-term sum; adding the bias broadcast along the rows and taking the maximum with
  zero is the clamp; the product with the transposed second weights plus the second bias gives the two outputs; the
  reduction of a row's maximum from minus infinity, the subtraction, the exponential, the reduction of a row's sum from
  zero and the division are the softmax. The flattened samples themselves (the table lookup) are not opened.
-/
import proofs.«103160_j62405874811636_1_alg».proof.Proof.Gen.ReferenceIdeal.Read
import proofs.«103160_j62405874811636_1_alg».proof.Proof.Spec
import Idealize.ShloMosaic.Lib.Pipeline.Value
import Idealize.ShloMosaic.Lib.ValueIdx
import Idealize.ShloMosaic.PureOps.Ideal.Laws

noncomputable section
namespace Cert.ReferenceIdeal.RefValue
open Cert.ReferenceIdeal Cert.ReferenceIdeal.Gen Cert.ReferenceIdeal.Read Idealize.ShloMosaic Idealize.ShloMosaic.ValueIdx
open scoped BigOperators

/-- Every sample's flattened embeddings, by sample and entry. -/
abbrev samples (x0 : (⟨S4096x200, .i32⟩ : BufTy).Contents (Elt Ideal)) (x1 : (⟨S50000x128, .f32⟩ : BufTy).Contents (Elt Ideal))
    (r : Fin 4096) (k : Fin 25600) : EReal := val_main_v10 (F := Ideal) x0 x1 (ix2 r k)
/-- The first weights by entry and unit, the second by unit and output. -/
abbrev weights1 (x2 : (⟨S1024x25600, .f32⟩ : BufTy).Contents (Elt Ideal)) (k : Fin 25600) (h : Fin 1024) : EReal := x2 (ix2 h k)
abbrev bias1 (x3 : (⟨S1024, .f32⟩ : BufTy).Contents (Elt Ideal)) (h : Fin 1024) : EReal := x3 (ix1 h)
abbrev weights2 (x4 : (⟨S2x1024, .f32⟩ : BufTy).Contents (Elt Ideal)) (h : Fin 1024) (l : Fin 2) : EReal := x4 (ix2 l h)
abbrev bias2 (x5 : (⟨S2, .f32⟩ : BufTy).Contents (Elt Ideal)) (l : Fin 2) : EReal := x5 (ix1 l)

/-! ## The index maps of the stages, at coordinates -/

theorem lidx12 (r : Fin 4096) (h : Fin 1024) (k : Fin 25600) : lidx_main_v12 (ix2 r h) k = ix2 r k :=
  funext fun a => by match a with | ⟨0, _⟩ => rfl | ⟨1, _⟩ => rfl
theorem ridx12 (r : Fin 4096) (h : Fin 1024) (k : Fin 25600) : ridx_main_v12 (ix2 r h) k = ix2 k h :=
  funext fun a => by match a with | ⟨0, _⟩ => rfl | ⟨1, _⟩ => rfl
theorem idx11 (k : Fin 25600) (h : Fin 1024) : idx_main_v11 (ix2 k h) = ix2 h k :=
  funext fun a => by match a with | ⟨0, _⟩ => rfl | ⟨1, _⟩ => rfl
theorem idx1314 (r : Fin 4096) (h : Fin 1024) : idx_main_v13 (idx_main_v14 (ix2 r h)) = ix1 h :=
  funext fun a => by match a with | ⟨0, _⟩ => rfl
theorem lidx18 (r : Fin 4096) (l : Fin 2) (k : Fin 1024) : lidx_main_v18 (ix2 r l) k = ix2 r k :=
  funext fun a => by match a with | ⟨0, _⟩ => rfl | ⟨1, _⟩ => rfl
theorem ridx18 (r : Fin 4096) (l : Fin 2) (k : Fin 1024) : ridx_main_v18 (ix2 r l) k = ix2 k l :=
  funext fun a => by match a with | ⟨0, _⟩ => rfl | ⟨1, _⟩ => rfl
theorem idx17 (k : Fin 1024) (l : Fin 2) : idx_main_v17 (ix2 k l) = ix2 l k :=
  funext fun a => by match a with | ⟨0, _⟩ => rfl | ⟨1, _⟩ => rfl
theorem idx1920 (r : Fin 4096) (l : Fin 2) : idx_main_v19 (idx_main_v20 (ix2 r l)) = ix1 l :=
  funext fun a => by match a with | ⟨0, _⟩ => rfl
theorem idx2526 (r : Fin 4096) (l : Fin 2) : idx_main_v25 (idx_main_v26 (ix2 r l)) = ix1 r :=
  funext fun a => by match a with | ⟨0, _⟩ => rfl
theorem idx3031 (r : Fin 4096) (l : Fin 2) : idx_main_v30 (idx_main_v31 (ix2 r l)) = ix1 r :=
  funext fun a => by match a with | ⟨0, _⟩ => rfl
theorem idx29 (r : Fin 4096) (k : Fin 2) : idx_main_v29 (ix1 r) k = ix2 r k :=
  funext fun a => by match a with | ⟨0, _⟩ => rfl | ⟨1, _⟩ => rfl

/-- A row's two columns, as the index the column reduction inserts. -/
theorem lift_eq (hr : S4096x2.Reduces [1] S4096) (r : Fin 4096) (k : Fin 2) : hr.lift (ix1 r) k = ix2 r k :=
  funext fun ax => Fin.ext (by match ax with | ⟨0, _⟩ => rfl | ⟨1, _⟩ => rfl)

/-! ## The stages -/

/-- The first product is each hidden unit's sum. -/
theorem hidden_apply (x0 : (⟨S4096x200, .i32⟩ : BufTy).Contents (Elt Ideal)) (x1 : (⟨S50000x128, .f32⟩ : BufTy).Contents (Elt Ideal)) (x2 : (⟨S1024x25600, .f32⟩ : BufTy).Contents (Elt Ideal)) (x3 : (⟨S1024, .f32⟩ : BufTy).Contents (Elt Ideal)) (x4 : (⟨S2x1024, .f32⟩ : BufTy).Contents (Elt Ideal)) (x5 : (⟨S2, .f32⟩ : BufTy).Contents (Elt Ideal)) (r : Fin 4096) (h : Fin 1024) :
    val_main_v12 (F := Ideal) x0 x1 x2 (ix2 r h) = Mlp.hidden (samples x0 x1 r) (weights1 x2) h := by
  rw [val_main_v12_apply]
  unfold Mlp.hidden
  refine Finset.sum_congr rfl fun k _ => ?_
  rw [lidx12, ridx12, val_main_v11_apply, idx11]

/-- Bias and clamp. -/
theorem clamped_apply (x0 : (⟨S4096x200, .i32⟩ : BufTy).Contents (Elt Ideal)) (x1 : (⟨S50000x128, .f32⟩ : BufTy).Contents (Elt Ideal)) (x2 : (⟨S1024x25600, .f32⟩ : BufTy).Contents (Elt Ideal)) (x3 : (⟨S1024, .f32⟩ : BufTy).Contents (Elt Ideal)) (x4 : (⟨S2x1024, .f32⟩ : BufTy).Contents (Elt Ideal)) (x5 : (⟨S2, .f32⟩ : BufTy).Contents (Elt Ideal)) (r : Fin 4096) (h : Fin 1024) :
    val_main_v16 (F := Ideal) x0 x1 x2 x3 (ix2 r h) = max (Mlp.hidden (samples x0 x1 r) (weights1 x2) h + bias1 x3 h) 0 := by
  rw [val_main_v16_apply, val_main_v15_apply, val_main_v14_apply, val_main_v13_apply, idx1314, val_main_call0_v0_apply,
    val_main_call0_cst_apply, hidden_apply x0 x1 x2 x3 x4 x5]
  simp only [Ideal.maximumf_def, Ideal.addf_def, Ideal.ofBits_def, Ideal.ofBits_zero_f32]

/-- The two outputs before the softmax. -/
theorem logit_apply (x0 : (⟨S4096x200, .i32⟩ : BufTy).Contents (Elt Ideal)) (x1 : (⟨S50000x128, .f32⟩ : BufTy).Contents (Elt Ideal)) (x2 : (⟨S1024x25600, .f32⟩ : BufTy).Contents (Elt Ideal)) (x3 : (⟨S1024, .f32⟩ : BufTy).Contents (Elt Ideal)) (x4 : (⟨S2x1024, .f32⟩ : BufTy).Contents (Elt Ideal)) (x5 : (⟨S2, .f32⟩ : BufTy).Contents (Elt Ideal)) (r : Fin 4096) (l : Fin 2) :
    val_main_v21 (F := Ideal) x0 x1 x2 x3 x4 x5 (ix2 r l)
      = Mlp.logit (Mlp.hidden (samples x0 x1 r) (weights1 x2)) (bias1 x3) (weights2 x4) (bias2 x5) l := by
  rw [val_main_v21_apply, val_main_v18_apply, val_main_v20_apply, val_main_v19_apply, idx1920]
  unfold Mlp.logit
  simp only [Ideal.addf_def]
  refine congrArg (· + x5 (ix1 l)) (Finset.sum_congr rfl fun k _ => ?_)
  rw [lidx18, ridx18, val_main_v17_apply, idx17, clamped_apply x0 x1 x2 x3 x4 x5]

/-- A row's maximum. -/
theorem rowMax_apply (x0 : (⟨S4096x200, .i32⟩ : BufTy).Contents (Elt Ideal)) (x1 : (⟨S50000x128, .f32⟩ : BufTy).Contents (Elt Ideal)) (x2 : (⟨S1024x25600, .f32⟩ : BufTy).Contents (Elt Ideal)) (x3 : (⟨S1024, .f32⟩ : BufTy).Contents (Elt Ideal)) (x4 : (⟨S2x1024, .f32⟩ : BufTy).Contents (Elt Ideal)) (x5 : (⟨S2, .f32⟩ : BufTy).Contents (Elt Ideal)) (r : Fin 4096) :
    val_main_v24 (F := Ideal) x0 x1 x2 x3 x4 x5 (ix1 r)
      = Mlp.rowMax (Mlp.logit (Mlp.hidden (samples x0 x1 r) (weights1 x2)) (bias1 x3) (weights2 x4) (bias2 x5)) := by
  rw [val_main_v24_apply, val_main_v23_apply, val_main_cst_3_apply]
  unfold Mlp.rowMax val_main_v22
  simp only [Ideal.maximumf_def, Ideal.ofBits_def]
  refine congrArg (max _) ?_
  refine (Host.reduce_eq_fold_single (FloatOps.maximumf (F := Ideal) (φ := .f32)) _ _ reducesTo_S4096x2_S4096_d1 (by decide) h_S_ (ix1 r)).trans ?_
  exact congrArg (fun f => Finset.fold max (Ideal.ofBits .f32 0xFF800000#32) f Finset.univ)
    (funext fun k => (congrArg (val_main_v21 (F := Ideal) x0 x1 x2 x3 x4 x5) (lift_eq _ r k)).trans (logit_apply x0 x1 x2 x3 x4 x5 r k))

/-- An output's shifted exponential. -/
theorem shifted_apply (x0 : (⟨S4096x200, .i32⟩ : BufTy).Contents (Elt Ideal)) (x1 : (⟨S50000x128, .f32⟩ : BufTy).Contents (Elt Ideal)) (x2 : (⟨S1024x25600, .f32⟩ : BufTy).Contents (Elt Ideal)) (x3 : (⟨S1024, .f32⟩ : BufTy).Contents (Elt Ideal)) (x4 : (⟨S2x1024, .f32⟩ : BufTy).Contents (Elt Ideal)) (x5 : (⟨S2, .f32⟩ : BufTy).Contents (Elt Ideal)) (r : Fin 4096) (l : Fin 2) :
    val_main_v28 (F := Ideal) x0 x1 x2 x3 x4 x5 (ix2 r l)
      = Ideal.exp (Mlp.logit (Mlp.hidden (samples x0 x1 r) (weights1 x2)) (bias1 x3) (weights2 x4) (bias2 x5) l
          - Mlp.rowMax (Mlp.logit (Mlp.hidden (samples x0 x1 r) (weights1 x2)) (bias1 x3) (weights2 x4) (bias2 x5))) := by
  rw [val_main_v28_apply, val_main_v27_apply, val_main_v26_apply, val_main_v25_apply, idx2526, rowMax_apply, logit_apply]
  simp only [Ideal.hostUnary_exp_def, Ideal.subf_def]

/-- THE REFERENCE AT AN ENTRY: the network's output l on sample r. -/
theorem result_apply (x0 : (⟨S4096x200, .i32⟩ : BufTy).Contents (Elt Ideal)) (x1 : (⟨S50000x128, .f32⟩ : BufTy).Contents (Elt Ideal)) (x2 : (⟨S1024x25600, .f32⟩ : BufTy).Contents (Elt Ideal)) (x3 : (⟨S1024, .f32⟩ : BufTy).Contents (Elt Ideal)) (x4 : (⟨S2x1024, .f32⟩ : BufTy).Contents (Elt Ideal)) (x5 : (⟨S2, .f32⟩ : BufTy).Contents (Elt Ideal)) (r : Fin 4096) (l : Fin 2) :
    val_main_v32 (F := Ideal) x0 x1 x2 x3 x4 x5 (ix2 r l)
      = Mlp.net (samples x0 x1 r) (weights1 x2) (bias1 x3) (weights2 x4) (bias2 x5) l := by
  rw [val_main_v32_apply, val_main_v31_apply, val_main_v30_apply, val_main_v29_apply, idx3031, shifted_apply]
  unfold Mlp.net Mlp.softmax2
  simp only [Ideal.hostDivf_def]
  refine congrArg (Ideal.div _) ?_
  rw [show val_main_cst_4 (F := Ideal) (Shape.Idx.first h_S_) = (0 : EReal) from Ideal.ofBits_zero_f32, zero_add]
  refine Finset.sum_congr rfl fun k _ => ?_
  rw [idx29, shifted_apply]

/-- THE REFERENCE'S RESULT is the specification's array. -/
theorem result_eq (x0 : (⟨S4096x200, .i32⟩ : BufTy).Contents (Elt Ideal)) (x1 : (⟨S50000x128, .f32⟩ : BufTy).Contents (Elt Ideal)) (x2 : (⟨S1024x25600, .f32⟩ : BufTy).Contents (Elt Ideal)) (x3 : (⟨S1024, .f32⟩ : BufTy).Contents (Elt Ideal)) (x4 : (⟨S2x1024, .f32⟩ : BufTy).Contents (Elt Ideal)) (x5 : (⟨S2, .f32⟩ : BufTy).Contents (Elt Ideal)) :
    val_main_v32 (F := Ideal) x0 x1 x2 x3 x4 x5
      = Mlp.resultArr (samples x0 x1) (weights1 x2) (bias1 x3) (weights2 x4) (bias2 x5) := by
  funext i
  obtain ⟨r, l, rfl⟩ : ∃ (r : Fin 4096) (l : Fin 2), i = ix2 r l := ⟨i 0, i 1, eq_ix2 i⟩
  exact result_apply x0 x1 x2 x3 x4 x5 r l

end Cert.ReferenceIdeal.RefValue
end
-- ==== Proof.lean ====
/-
  A two-layer network on embedded token sequences, as a Pallas kernel against its jnp reference: equal results over the
  extended reals.

  Both programs zero row 0 of the embedding table, look the tokens up and flatten each sample's embeddings, by the
  same host operations; that array is carried as one unopened function of the arguments. The kernel then runs the
  hidden layer's 25600-term products in ten steps of 2560 terms, accumulated from zero in a scratch buffer across a
  grid axis, and at each row block's last step writes the clamped hidden layer's product with the second weights,
  the bias and the row softmax; the reference takes each product whole. A sum of extended reals may be regrouped and
  zero is neutral, so the ten-step total is the whole sum (Spec.lean); changes of float format are the identity; and
  the clamp, the maximum, the exponential, the sum and the quotient of the softmax are the same operations on both
  sides. The three frames are the generated ones (the reference's is its generated run with the result dropped), and
  the idealization rewrote nothing.
-/
import proofs.«103160_j62405874811636_1_alg».proof.Defs
import proofs.«103160_j62405874811636_1_alg».proof.Proof.Gen.Kernel
import proofs.«103160_j62405874811636_1_alg».proof.Proof.Gen.Kernel.Skeleton
import proofs.«103160_j62405874811636_1_alg».proof.Proof.Gen.Kernel.Launch
import proofs.«103160_j62405874811636_1_alg».proof.Proof.Gen.Kernel.Points
import proofs.«103160_j62405874811636_1_alg».proof.Proof.Gen.Kernel.Frame
import proofs.«103160_j62405874811636_1_alg».proof.Proof.Gen.KernelIdeal
import proofs.«103160_j62405874811636_1_alg».proof.Proof.Gen.KernelIdeal.Skeleton
import proofs.«103160_j62405874811636_1_alg».proof.Proof.Gen.KernelIdeal.Launch
import proofs.«103160_j62405874811636_1_alg».proof.Proof.Gen.KernelIdeal.Points
import proofs.«103160_j62405874811636_1_alg».proof.Proof.Gen.KernelIdeal.Frame
import proofs.«103160_j62405874811636_1_alg».proof.Proof.Gen.ReferenceIdeal
import proofs.«103160_j62405874811636_1_alg».proof.Proof.Gen.Pre_finite_inputs
import proofs.«103160_j62405874811636_1_alg».proof.Proof.Gen.KernelIdeal.Value
import proofs.«103160_j62405874811636_1_alg».proof.Proof.Gen.ReferenceIdeal.Run
import proofs.«103160_j62405874811636_1_alg».proof.Proof.Gen.ReferenceIdeal.Read
import proofs.«103160_j62405874811636_1_alg».proof.Proof.KernelValue
import proofs.«103160_j62405874811636_1_alg».proof.Proof.ReferenceValue
import Idealize.ShloMosaic.Adequacy
import Idealize.ShloMosaic.Init

noncomputable section

namespace Cert.Proof

open Idealize.ShloMosaic Idealize.ShloMosaic.TcCoe Idealize.SL.Sem Idealize.ShloMosaic.ValueIdx

/-- The flattened embeddings are one function of the tokens and the table in both programs: the same host
    operations, over the same shapes. -/
theorem flat_eq (x0 : (⟨Cert.KernelIdeal.S4096x200, .i32⟩ : BufTy).Contents (Elt Ideal))
    (x1 : (⟨Cert.KernelIdeal.S50000x128, .f32⟩ : BufTy).Contents (Elt Ideal)) :
    Cert.KernelIdeal.Blocks.flat x0 x1 = Cert.ReferenceIdeal.Read.val_main_v10 (F := Ideal) x0 x1 := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network's outputs on every sample, as one function of arguments that agree. -/
theorem algebraic : Cert.algebraic_KernelIdeal_ReferenceIdeal := by
  intro m ρ m' ρ' _ hagree
  refine ⟨fun c => Cert.KernelIdeal.RunValue.resultOfArgs m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.result_eq, (hagree c).1, (hagree c).2.1,
    (hagree c).2.2.1, (hagree c).2.2.2.1, (hagree c).2.2.2.2.1, (hagree c).2.2.2.2.2]
  show Mlp.resultArr (fun r k => Cert.ReferenceIdeal.Read.val_main_v10 (F := Ideal) _ _ (ix2 r k)) _ _ _ _
    = Mlp.resultArr (fun r k => Cert.KernelIdeal.Blocks.flat _ _ (ix2 r k)) _ _ _ _
  rw [flat_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
